-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x224x224x5 : Shape := ⟨4, ![128, 224, 224, 5]⟩
abbrev S_ : Shape := ⟨0, ![]⟩

class Facts : Prop where
  bcast_S_S128x224x224x5 : S_.BroadcastsInDim S128x224x224x5 (![] : Fin 0 → Fin S128x224x224x5.rank)
  reducesTo_S128x224x224x5_S_d0_1_2_3 : S128x224x224x5.ReducesTo [0, 1, 2, 3] S_
  h_S_ : 0 < S_.numel

variable [Facts]

def fn {F : FTy → Type} [FloatOps F] (main_arg0 : FVec F S128x224x224x5 .f32) : IVec S_ 1 :=
  let main_v0 : FVec F S128x224x224x5 .f32 := Host.absf main_arg0
  let main_cst : FVec F S_ .f32 := constant S_ .f32 0x7F800000#32
  let main_v1 : FVec F S128x224x224x5 .f32 := broadcastInDim S128x224x224x5 ![] bcast_S_S128x224x224x5 main_cst
  let main_v2 : IVec S128x224x224x5 1 := cmpf .olt main_v0 main_v1
  let main_c : IVec S_ 1 := constantI S_ 1 1#1
  let main_v3 : IVec S_ 1 := (fun x v => Host.reduce IntOp.andi x v reducesTo_S128x224x224x5_S_d0_1_2_3 h_S_) main_v2 main_c
  main_v3
-- ==== Kernel.lean ====
abbrev S128x224x224x5 : Shape := ⟨4, ![128, 224, 224, 5]⟩
abbrev S128x224x224x3 : Shape := ⟨4, ![128, 224, 224, 3]⟩
abbrev S128x224x224x1 : Shape := ⟨4, ![128, 224, 224, 1]⟩
abbrev S128x224x224 : Shape := ⟨3, ![128, 224, 224]⟩
abbrev S_ : Shape := ⟨0, ![]⟩
abbrev S128x226x226x3 : Shape := ⟨4, ![128, 226, 226, 3]⟩
abbrev S128 : Shape := ⟨1, ![128]⟩
abbrev S128x1x1 : Shape := ⟨3, ![128, 1, 1]⟩
abbrev S4x224x224x3 : Shape := ⟨4, ![4, 224, 224, 3]⟩
abbrev S4x224x224x1 : Shape := ⟨4, ![4, 224, 224, 1]⟩

abbrev nBuf : Space → Nat
  | .hbm => 192
  | .vmem => 18
  | .smem => 0
  | _ => 0

abbrev hbmTy0_0 (i : Nat) : BufTy := match i % 128 with
  | 0 => ⟨S128x224x224x5, .f32⟩
  | 1 => ⟨S128x224x224x3, .f32⟩
  | 2 => ⟨S128x224x224x1, .f32⟩
  | 3 => ⟨S128x224x224, .f32⟩
  | 4 => ⟨S128x224x224x1, .f32⟩
  | 5 => ⟨S128x224x224, .f32⟩
  | 6 => ⟨S128x224x224, .f32⟩
  | 7 => ⟨S128x224x224, .f32⟩
  | 8 => ⟨S128x224x224, .f32⟩
  | 9 => ⟨S128x224x224, .f32⟩
  | 10 => ⟨S_, .f32⟩
  | 11 => ⟨S128x224x224, .f32⟩
  | 12 => ⟨S128x224x224, .f32⟩
  | 13 => ⟨S_, .f32⟩
  | 14 => ⟨S128x224x224, .f32⟩
  | 15 => ⟨S128x224x224, .f32⟩
  | 16 => ⟨S128x224x224, .f32⟩
  | 17 => ⟨S128x224x224x1, .f32⟩
  | 18 => ⟨S_, .f32⟩
  | 19 => ⟨S128x224x224, .f32⟩
  | 20 => ⟨S128x224x224, .f32⟩
  | 21 => ⟨S128x224x224, .f32⟩
  | 22 => ⟨S128x224x224x1, .f32⟩
  | 23 => ⟨S_, .f32⟩
  | 24 => ⟨S128x224x224, .f32⟩
  | 25 => ⟨S128x224x224, .f32⟩
  | 26 => ⟨S128x224x224, .f32⟩
  | 27 => ⟨S128x224x224x1, .f32⟩
  | 28 => ⟨S128x224x224, .f32⟩
  | 29 => ⟨S128x224x224x1, .f32⟩
  | 30 => ⟨S_, .i32⟩
  | 31 => ⟨S_, .f32⟩
  | 32 => ⟨S128x226x226x3, .f32⟩
  | 33 => ⟨S_, .f32⟩
  | 34 => ⟨S128x224x224, .f32⟩
  | 35 => ⟨S128x224x224, .f32⟩
  | 36 => ⟨S_, .f32⟩
  | 37 => ⟨S_, .f32⟩
  | 38 => ⟨S_, .f32⟩
  | 39 => ⟨S128x224x224, .f32⟩
  | 40 => ⟨S128x224x224, .f32⟩
  | 41 => ⟨S_, .f32⟩
  | 42 => ⟨S128x224x224, .f32⟩
  | 43 => ⟨S128x224x224, .f32⟩
  | 44 => ⟨S128x224x224, .i32⟩
  | 45 => ⟨S_, .f32⟩
  | 46 => ⟨S128x224x224, .f32⟩
  | 47 => ⟨S128x224x224, .f32⟩
  | 48 => ⟨S_, .f32⟩
  | 49 => ⟨S_, .f32⟩
  | 50 => ⟨S_, .f32⟩
  | 51 => ⟨S128x224x224, .f32⟩
  | 52 => ⟨S128x224x224, .f32⟩
  | 53 => ⟨S_, .f32⟩
  | 54 => ⟨S128x224x224, .f32⟩
  | 55 => ⟨S128x224x224, .f32⟩
  | 56 => ⟨S128x224x224, .i32⟩
  | 57 => ⟨S_, .f32⟩
  | 58 => ⟨S128x224x224, .f32⟩
  | 59 => ⟨S128x224x224, .f32⟩
  | 60 => ⟨S_, .f32⟩
  | 61 => ⟨S_, .f32⟩
  | 62 => ⟨S_, .f32⟩
  | 63 => ⟨S128x224x224, .f32⟩
  | 64 => ⟨S128x224x224, .f32⟩
  | 65 => ⟨S_, .f32⟩
  | 66 => ⟨S128x224x224, .f32⟩
  | 67 => ⟨S128x224x224, .f32⟩
  | 68 => ⟨S128x224x224, .i32⟩
  | 69 => ⟨S_, .f32⟩
  | 70 => ⟨S128x224x224, .f32⟩
  | 71 => ⟨S128x224x224, .f32⟩
  | 72 => ⟨S_, .f32⟩
  | 73 => ⟨S_, .f32⟩
  | 74 => ⟨S_, .f32⟩
  | 75 => ⟨S128x224x224, .f32⟩
  | 76 => ⟨S128x224x224, .f32⟩
  | 77 => ⟨S_, .f32⟩
  | 78 => ⟨S128x224x224, .f32⟩
  | 79 => ⟨S128x224x224, .f32⟩
  | 80 => ⟨S128x224x224, .i32⟩
  | 81 => ⟨S128, .i32⟩
  | 82 => ⟨S128x1x1, .i32⟩
  | 83 => ⟨S_, .i32⟩
  | 84 => ⟨S128x1x1, .i32⟩
  | 85 => ⟨S128x1x1, .i1⟩
  | 86 => ⟨S_, .i32⟩
  | 87 => ⟨S128x1x1, .i32⟩
  | 88 => ⟨S128x1x1, .i32⟩
  | 89 => ⟨S128x1x1, .i32⟩
  | 90 => ⟨S_, .i32⟩
  | 91 => ⟨S128x224x224, .i32⟩
  | 92 => ⟨S128x224x224, .i1⟩
  | 93 => ⟨S_, .i32⟩
  | 94 => ⟨S128x224x224, .i32⟩
  | 95 => ⟨S128x224x224, .i32⟩
  | 96 => ⟨S128x224x224, .i32⟩
  | 97 => ⟨S_, .i32⟩
  | 98 => ⟨S128x224x224, .i32⟩
  | 99 => ⟨S128x224x224, .i1⟩
  | 100 => ⟨S_, .i32⟩
  | 101 => ⟨S128x224x224, .i32⟩
  | 102 => ⟨S128x224x224, .i32⟩
  | 103 => ⟨S128x224x224, .i32⟩
  | 104 => ⟨S128x224x224, .i32⟩
  | 105 => ⟨S128x224x224x1, .i32⟩
  | 106 => ⟨S128x224x224x1, .i32⟩
  | 107 => ⟨S128x224x224x1, .i32⟩
  | 108 => ⟨S128x224x224x3, .i32⟩
  | 109 => ⟨S128x224x224x3, .f32⟩
  | 110 => ⟨S_, .i32⟩
  | 111 => ⟨S128x1x1, .i32⟩
  | 112 => ⟨S128x1x1, .i1⟩
  | 113 => ⟨S_, .i32⟩
  | 114 => ⟨S128x1x1, .i32⟩
  | 115 => ⟨S128x1x1, .i32⟩
  | 116 => ⟨S128x1x1, .i32⟩
  | 117 => ⟨S_, .i32⟩
  | 118 => ⟨S128x224x224, .i32⟩
  | 119 => ⟨S128x224x224, .i1⟩
  | 120 => ⟨S_, .i32⟩
  | 121 => ⟨S128x224x224, .i32⟩
  | 122 => ⟨S128x224x224, .i32⟩
  | 123 => ⟨S128x224x224, .i32⟩
  | 124 => ⟨S_, .i32⟩
  | 125 => ⟨S128x224x224, .i32⟩
  | 126 => ⟨S128x224x224, .i1⟩
  | 127 => ⟨S_, .i32⟩
  | _ => ⟨S128x224x224x5, .f32⟩

abbrev hbmTy0_1 (i : Nat) : BufTy := match i % 128 with
  | 0 => ⟨S128x224x224, .i32⟩
  | 1 => ⟨S128x224x224, .i32⟩
  | 2 => ⟨S128x224x224, .i32⟩
  | 3 => ⟨S128x224x224, .i32⟩
  | 4 => ⟨S128x224x224x1, .i32⟩
  | 5 => ⟨S128x224x224x1, .i32⟩
  | 6 => ⟨S128x224x224x1, .i32⟩
  | 7 => ⟨S128x224x224x3, .i32⟩
  | 8 => ⟨S128x224x224x3, .f32⟩
  | 9 => ⟨S_, .i32⟩
  | 10 => ⟨S128x1x1, .i32⟩
  | 11 => ⟨S128x1x1, .i1⟩
  | 12 => ⟨S_, .i32⟩
  | 13 => ⟨S128x1x1, .i32⟩
  | 14 => ⟨S128x1x1, .i32⟩
  | 15 => ⟨S128x1x1, .i32⟩
  | 16 => ⟨S_, .i32⟩
  | 17 => ⟨S128x224x224, .i32⟩
  | 18 => ⟨S128x224x224, .i1⟩
  | 19 => ⟨S_, .i32⟩
  | 20 => ⟨S128x224x224, .i32⟩
  | 21 => ⟨S128x224x224, .i32⟩
  | 22 => ⟨S128x224x224, .i32⟩
  | 23 => ⟨S_, .i32⟩
  | 24 => ⟨S128x224x224, .i32⟩
  | 25 => ⟨S128x224x224, .i1⟩
  | 26 => ⟨S_, .i32⟩
  | 27 => ⟨S128x224x224, .i32⟩
  | 28 => ⟨S128x224x224, .i32⟩
  | 29 => ⟨S128x224x224, .i32⟩
  | 30 => ⟨S128x224x224, .i32⟩
  | 31 => ⟨S128x224x224x1, .i32⟩
  | 32 => ⟨S128x224x224x1, .i32⟩
  | 33 => ⟨S128x224x224x1, .i32⟩
  | 34 => ⟨S128x224x224x3, .i32⟩
  | 35 => ⟨S128x224x224x3, .f32⟩
  | 36 => ⟨S_, .i32⟩
  | 37 => ⟨S128x1x1, .i32⟩
  | 38 => ⟨S128x1x1, .i1⟩
  | 39 => ⟨S_, .i32⟩
  | 40 => ⟨S128x1x1, .i32⟩
  | 41 => ⟨S128x1x1, .i32⟩
  | 42 => ⟨S128x1x1, .i32⟩
  | 43 => ⟨S_, .i32⟩
  | 44 => ⟨S128x224x224, .i32⟩
  | 45 => ⟨S128x224x224, .i1⟩
  | 46 => ⟨S_, .i32⟩
  | 47 => ⟨S128x224x224, .i32⟩
  | 48 => ⟨S128x224x224, .i32⟩
  | 49 => ⟨S128x224x224, .i32⟩
  | 50 => ⟨S_, .i32⟩
  | 51 => ⟨S128x224x224, .i32⟩
  | 52 => ⟨S128x224x224, .i1⟩
  | 53 => ⟨S_, .i32⟩
  | 54 => ⟨S128x224x224, .i32⟩
  | 55 => ⟨S128x224x224, .i32⟩
  | 56 => ⟨S128x224x224, .i32⟩
  | 57 => ⟨S128x224x224, .i32⟩
  | 58 => ⟨S128x224x224x1, .i32⟩
  | 59 => ⟨S128x224x224x1, .i32⟩
  | 60 => ⟨S128x224x224x1, .i32⟩
  | 61 => ⟨S128x224x224x3, .i32⟩
  | 62 => ⟨S128x224x224x3, .f32⟩
  | 63 => ⟨S128x224x224x3, .f32⟩
  | _ => ⟨S128x224x224x5, .f32⟩

abbrev hbmTy (i : Nat) : BufTy := match i / 128 with
  | 0 => hbmTy0_0 i
  | 1 => hbmTy0_1 i
  | _ => ⟨S128x224x224x5, .f32⟩

abbrev bufTy : (tb : Table) → Fin (tcTables nBuf tb) → BufTy
  | .hbm, ⟨i, _⟩ => hbmTy i
  | .local _ .vmem, ⟨0, _⟩ => ⟨S4x224x224x3, .f32⟩
  | .local _ .vmem, ⟨1, _⟩ => ⟨S4x224x224x3, .f32⟩
  | .local _ .vmem, ⟨2, _⟩ => ⟨S4x224x224x3, .f32⟩
  | .local _ .vmem, ⟨3, _⟩ => ⟨S4x224x224x3, .f32⟩
  | .local _ .vmem, ⟨4, _⟩ => ⟨S4x224x224x3, .f32⟩
  | .local _ .vmem, ⟨5, _⟩ => ⟨S4x224x224x3, .f32⟩
  | .local _ .vmem, ⟨6, _⟩ => ⟨S4x224x224x3, .f32⟩
  | .local _ .vmem, ⟨7, _⟩ => ⟨S4x224x224x3, .f32⟩
  | .local _ .vmem, ⟨8, _⟩ => ⟨S4x224x224x1, .f32⟩
  | .local _ .vmem, ⟨9, _⟩ => ⟨S4x224x224x1, .f32⟩
  | .local _ .vmem, ⟨10, _⟩ => ⟨S4x224x224x1, .f32⟩
  | .local _ .vmem, ⟨11, _⟩ => ⟨S4x224x224x1, .f32⟩
  | .local _ .vmem, ⟨12, _⟩ => ⟨S4x224x224x1, .f32⟩
  | .local _ .vmem, ⟨13, _⟩ => ⟨S4x224x224x1, .f32⟩
  | .local _ .vmem, ⟨14, _⟩ => ⟨S4x224x224x1, .f32⟩
  | .local _ .vmem, ⟨15, _⟩ => ⟨S4x224x224x1, .f32⟩
  | .local _ .vmem, ⟨16, _⟩ => ⟨S4x224x224x3, .f32⟩
  | .local _ .vmem, ⟨17, _⟩ => ⟨S4x224x224x3, .f32⟩
  | _, _ => ⟨S128x224x224x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c : Ref sig .tc := ⟨.hbm, 30, rfl⟩
abbrev main_call0_v0 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_cst_8 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_cst_10 : Ref sig .tc := ⟨.hbm, 60, rfl⟩
abbrev main_cst_11 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v36 : Ref sig .tc := ⟨.hbm, 67, rfl⟩
abbrev main_v37 : Ref sig .tc := ⟨.hbm, 68, rfl⟩
abbrev main_cst_12 : Ref sig .tc := ⟨.hbm, 69, rfl⟩
abbrev main_v38 : Ref sig .tc := ⟨.hbm, 70, rfl⟩
abbrev main_v39 : Ref sig .tc := ⟨.hbm, 71, rfl⟩
abbrev main_cst_13 : Ref sig .tc := ⟨.hbm, 72, rfl⟩
abbrev main_cst_14 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_15 : Ref sig .tc := ⟨.hbm, 83, rfl⟩
abbrev main_v44 : Ref sig .tc := ⟨.hbm, 84, rfl⟩
abbrev main_v45 : Ref sig .tc := ⟨.hbm, 85, rfl⟩
abbrev main_c_16 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_c_17 : Ref sig .tc := ⟨.hbm, 90, rfl⟩
abbrev main_v49 : Ref sig .tc := ⟨.hbm, 91, rfl⟩
abbrev main_v50 : Ref sig .tc := ⟨.hbm, 92, rfl⟩
abbrev main_c_18 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_19 : Ref sig .tc := ⟨.hbm, 97, rfl⟩
abbrev main_v54 : Ref sig .tc := ⟨.hbm, 98, rfl⟩
abbrev main_v55 : Ref sig .tc := ⟨.hbm, 99, rfl⟩
abbrev main_c_20 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_c_21 : Ref sig .tc := ⟨.hbm, 110, rfl⟩
abbrev main_v65 : Ref sig .tc := ⟨.hbm, 111, rfl⟩
abbrev main_v66 : Ref sig .tc := ⟨.hbm, 112, rfl⟩
abbrev main_c_22 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_c_23 : Ref sig .tc := ⟨.hbm, 117, rfl⟩
abbrev main_v70 : Ref sig .tc := ⟨.hbm, 118, rfl⟩
abbrev main_v71 : Ref sig .tc := ⟨.hbm, 119, rfl⟩
abbrev main_c_24 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_c_25 : Ref sig .tc := ⟨.hbm, 124, rfl⟩
abbrev main_v75 : Ref sig .tc := ⟨.hbm, 125, rfl⟩
abbrev main_v76 : Ref sig .tc := ⟨.hbm, 126, rfl⟩
abbrev main_c_26 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_c_27 : Ref sig .tc := ⟨.hbm, 137, rfl⟩
abbrev main_v86 : Ref sig .tc := ⟨.hbm, 138, rfl⟩
abbrev main_v87 : Ref sig .tc := ⟨.hbm, 139, rfl⟩
abbrev main_c_28 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_c_29 : Ref sig .tc := ⟨.hbm, 144, rfl⟩
abbrev main_v91 : Ref sig .tc := ⟨.hbm, 145, rfl⟩
abbrev main_v92 : Ref sig .tc := ⟨.hbm, 146, rfl⟩
abbrev main_c_30 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_c_31 : Ref sig .tc := ⟨.hbm, 151, rfl⟩
abbrev main_v96 : Ref sig .tc := ⟨.hbm, 152, rfl⟩
abbrev main_v97 : Ref sig .tc := ⟨.hbm, 153, rfl⟩
abbrev main_c_32 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_33 : Ref sig .tc := ⟨.hbm, 164, rfl⟩
abbrev main_v107 : Ref sig .tc := ⟨.hbm, 165, rfl⟩
abbrev main_v108 : Ref sig .tc := ⟨.hbm, 166, rfl⟩
abbrev main_c_34 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_c_35 : Ref sig .tc := ⟨.hbm, 171, rfl⟩
abbrev main_v112 : Ref sig .tc := ⟨.hbm, 172, rfl⟩
abbrev main_v113 : Ref sig .tc := ⟨.hbm, 173, rfl⟩
abbrev main_c_36 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_c_37 : Ref sig .tc := ⟨.hbm, 178, rfl⟩
abbrev main_v117 : Ref sig .tc := ⟨.hbm, 179, rfl⟩
abbrev main_v118 : Ref sig .tc := ⟨.hbm, 180, rfl⟩
abbrev main_c_38 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x224x224x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x224x224x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x224x224x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x224x224x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x224x224x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x224x224x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x224x224x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x224x224x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x224x224x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S128x224x224x5_S128x224x224x3_0_0_0_0 : S128x224x224x5.Slices ![0, 0, 0, 0] S128x224x224x3
  slices_S128x224x224x5_S128x224x224x1_0_0_0_3 : S128x224x224x5.Slices ![0, 0, 0, 3] S128x224x224x1
  shapeCasts_S128x224x224x1_S128x224x224 : S128x224x224x1.ShapeCasts S128x224x224
  slices_S128x224x224x5_S128x224x224x1_0_0_0_4 : S128x224x224x5.Slices ![0, 0, 0, 4] S128x224x224x1
  bcast_S_S128x224x224 : S_.BroadcastsInDim S128x224x224 (![] : Fin 0 → Fin S128x224x224.rank)
  bcast_S128x224x224_S128x224x224x1_0_1_2 : S128x224x224.BroadcastsInDim S128x224x224x1 (![0, 1, 2] : Fin 3 → Fin S128x224x224x1.rank)
  pads_S128x224x224x3_S128x226x226x3_000_110_110_000 : S128x224x224x3.Pads (![0, 1, 1, 0] : Fin 4 → Nat) ![0, 1, 1, 0] ![0, 0, 0, 0] S128x226x226x3
  h_S_ : 0 < S_.numel
  bcast_S128_S128x1x1_0 : S128.BroadcastsInDim S128x1x1 (![0] : Fin 1 → Fin S128x1x1.rank)
  bcast_S_S128x1x1 : S_.BroadcastsInDim S128x1x1 (![] : Fin 0 → Fin S128x1x1.rank)
  bcast_S128x1x1_S128x224x224_0_1_2 : S128x1x1.BroadcastsInDim S128x224x224 (![0, 1, 2] : Fin 3 → Fin S128x224x224.rank)
  concatenates_S128x224x224x1_S128x224x224x1_S128x224x224x1_S128x224x224x3_d3 : Shape.Concatenates [S128x224x224x1, S128x224x224x1, S128x224x224x1] S128x224x224x3 3
  inb_S4x224x224x1_S4x224x224x1_0_0_0_0 : ∀ a, (![0, 0, 0, 0] : Fin 4 → Nat) a + S4x224x224x1.size a ≤ S4x224x224x1.size a
  h_S4x224x224x1 : 0 < S4x224x224x1.numel
  shapeCasts_S4x224x224x1_S4x224x224x1 : S4x224x224x1.ShapeCasts S4x224x224x1
  inb_S4x224x224x3_S4x224x224x3_0_0_0_0 : ∀ a, (![0, 0, 0, 0] : Fin 4 → Nat) a + S4x224x224x3.size a ≤ S4x224x224x3.size a
  h_S4x224x224x3 : 0 < S4x224x224x3.numel
  shapeCasts_S4x224x224x3_S4x224x224x3 : S4x224x224x3.ShapeCasts S4x224x224x3
  broadcasts_S4x224x224x1_S4x224x224x3 : S4x224x224x1.Broadcasts S4x224x224x3
  gather_S128x226x226x3_S128x224x224x3_S128x224x224x3_3_012_n_n_012_3_1113_wf : GatherDims.WF S128x226x226x3 S128x224x224x3 S128x224x224x3 [3] [0, 1, 2] [] [0, 1, 2] [] 3 ![1, 1, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x224x224x3.size a ≤ S128x224x224x3.size a
  hwx0_0 : ∀ i : grid0.Coords, EltTy.bits .f32 = 32 ∨ (Rect.block (s := S128x224x224x3) S4x224x224x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x224x224x3.size a ≤ S128x224x224x3.size a
  hwx0_1 : ∀ i : grid0.Coords, EltTy.bits .f32 = 32 ∨ (Rect.block (s := S128x224x224x3) S4x224x224x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x224x224x3.size a ≤ S128x224x224x3.size a
  hwx0_2 : ∀ i : grid0.Coords, EltTy.bits .f32 = 32 ∨ (Rect.block (s := S128x224x224x3) S4x224x224x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x224x224x3.size a ≤ S128x224x224x3.size a
  hwx0_3 : ∀ i : grid0.Coords, EltTy.bits .f32 = 32 ∨ (Rect.block (s := S128x224x224x3) S4x224x224x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x224x224x1.size a ≤ S128x224x224x1.size a
  hwx0_4 : ∀ i : grid0.Coords, EltTy.bits .f32 = 32 ∨ (Rect.block (s := S128x224x224x1) S4x224x224x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x224x224x1.size a ≤ S128x224x224x1.size a
  hwx0_5 : ∀ i : grid0.Coords, EltTy.bits .f32 = 32 ∨ (Rect.block (s := S128x224x224x1) S4x224x224x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x224x224x1.size a ≤ S128x224x224x1.size a
  hwx0_6 : ∀ i : grid0.Coords, EltTy.bits .f32 = 32 ∨ (Rect.block (s := S128x224x224x1) S4x224x224x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x224x224x1.size a ≤ S128x224x224x1.size a
  hwx0_7 : ∀ i : grid0.Coords, EltTy.bits .f32 = 32 ∨ (Rect.block (s := S128x224x224x1) S4x224x224x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x224x224x3.size a ≤ S128x224x224x3.size a
  hwx0_8 : ∀ i : grid0.Coords, EltTy.bits .f32 = 32 ∨ (Rect.block (s := S128x224x224x3) S4x224x224x3.size (cc0_transform_8 i) (hinb0_8 i)).WholeWords (EltTy.packing .f32)

variable [Facts₀]

def gather_S128x226x226x3_S128x224x224x3_S128x224x224x3_3_012_n_n_012_3_1113 : GatherDims S128x226x226x3 S128x224x224x3 S128x224x224x3 where
  offsetDims := [3]
  collapsedSliceDims := [0, 1, 2]
  operandBatchingDims := []
  startIndicesBatchingDims := []
  startIndexMap := [0, 1, 2]
  indexVectorDim := 3
  sliceSizes := ![1, 1, 1, 3]
  wf := gather_S128x226x226x3_S128x224x224x3_S128x224x224x3_3_012_n_n_012_3_1113_wf

abbrev win0_0 : Pipeline.Window sig grid0 :=
  Pipeline.Window.ofSpec (Memref.whole main_v64) S4x224x224x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v85) S4x224x224x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v106) S4x224x224x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v127) S4x224x224x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S4x224x224x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S4x224x224x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S4x224x224x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24) S4x224x224x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v128) S4x224x224x3.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S128x224x224x5 : Shape := ⟨4, ![128, 224, 224, 5]⟩
abbrev S128x224x224x3 : Shape := ⟨4, ![128, 224, 224, 3]⟩
abbrev S128x224x224x1 : Shape := ⟨4, ![128, 224, 224, 1]⟩
abbrev S128x224x224 : Shape := ⟨3, ![128, 224, 224]⟩
abbrev S_ : Shape := ⟨0, ![]⟩
abbrev S128x226x226x3 : Shape := ⟨4, ![128, 226, 226, 3]⟩
abbrev S128 : Shape := ⟨1, ![128]⟩
abbrev S128x1x1 : Shape := ⟨3, ![128, 1, 1]⟩

abbrev nBuf : Space → Nat
  | .hbm => 202
  | .vmem => 0
  | .smem => 0
  | _ => 0

abbrev hbmTy0_0 (i : Nat) : BufTy := match i % 128 with
  | 0 => ⟨S128x224x224x5, .f32⟩
  | 1 => ⟨S128x224x224x3, .f32⟩
  | 2 => ⟨S128x224x224x1, .f32⟩
  | 3 => ⟨S128x224x224, .f32⟩
  | 4 => ⟨S128x224x224x1, .f32⟩
  | 5 => ⟨S128x224x224, .f32⟩
  | 6 => ⟨S128x224x224, .f32⟩
  | 7 => ⟨S128x224x224, .f32⟩
  | 8 => ⟨S128x224x224, .f32⟩
  | 9 => ⟨S128x224x224, .f32⟩
  | 10 => ⟨S_, .f32⟩
  | 11 => ⟨S128x224x224, .f32⟩
  | 12 => ⟨S128x224x224, .f32⟩
  | 13 => ⟨S_, .f32⟩
  | 14 => ⟨S128x224x224, .f32⟩
  | 15 => ⟨S128x224x224, .f32⟩
  | 16 => ⟨S128x224x224, .f32⟩
  | 17 => ⟨S128x224x224x1, .f32⟩
  | 18 => ⟨S_, .f32⟩
  | 19 => ⟨S128x224x224, .f32⟩
  | 20 => ⟨S128x224x224, .f32⟩
  | 21 => ⟨S128x224x224, .f32⟩
  | 22 => ⟨S128x224x224x1, .f32⟩
  | 23 => ⟨S_, .f32⟩
  | 24 => ⟨S128x224x224, .f32⟩
  | 25 => ⟨S128x224x224, .f32⟩
  | 26 => ⟨S128x224x224, .f32⟩
  | 27 => ⟨S128x224x224x1, .f32⟩
  | 28 => ⟨S128x224x224, .f32⟩
  | 29 => ⟨S128x224x224x1, .f32⟩
  | 30 => ⟨S_, .i32⟩
  | 31 => ⟨S_, .f32⟩
  | 32 => ⟨S128x226x226x3, .f32⟩
  | 33 => ⟨S_, .f32⟩
  | 34 => ⟨S128x224x224, .f32⟩
  | 35 => ⟨S128x224x224, .f32⟩
  | 36 => ⟨S_, .f32⟩
  | 37 => ⟨S_, .f32⟩
  | 38 => ⟨S_, .f32⟩
  | 39 => ⟨S128x224x224, .f32⟩
  | 40 => ⟨S128x224x224, .f32⟩
  | 41 => ⟨S_, .f32⟩
  | 42 => ⟨S128x224x224, .f32⟩
  | 43 => ⟨S128x224x224, .f32⟩
  | 44 => ⟨S128x224x224, .i32⟩
  | 45 => ⟨S_, .f32⟩
  | 46 => ⟨S128x224x224, .f32⟩
  | 47 => ⟨S128x224x224, .f32⟩
  | 48 => ⟨S_, .f32⟩
  | 49 => ⟨S_, .f32⟩
  | 50 => ⟨S_, .f32⟩
  | 51 => ⟨S128x224x224, .f32⟩
  | 52 => ⟨S128x224x224, .f32⟩
  | 53 => ⟨S_, .f32⟩
  | 54 => ⟨S128x224x224, .f32⟩
  | 55 => ⟨S128x224x224, .f32⟩
  | 56 => ⟨S128x224x224, .i32⟩
  | 57 => ⟨S_, .f32⟩
  | 58 => ⟨S128x224x224, .f32⟩
  | 59 => ⟨S128x224x224, .f32⟩
  | 60 => ⟨S_, .f32⟩
  | 61 => ⟨S_, .f32⟩
  | 62 => ⟨S_, .f32⟩
  | 63 => ⟨S128x224x224, .f32⟩
  | 64 => ⟨S128x224x224, .f32⟩
  | 65 => ⟨S_, .f32⟩
  | 66 => ⟨S128x224x224, .f32⟩
  | 67 => ⟨S128x224x224, .f32⟩
  | 68 => ⟨S128x224x224, .i32⟩
  | 69 => ⟨S_, .f32⟩
  | 70 => ⟨S128x224x224, .f32⟩
  | 71 => ⟨S128x224x224, .f32⟩
  | 72 => ⟨S_, .f32⟩
  | 73 => ⟨S_, .f32⟩
  | 74 => ⟨S_, .f32⟩
  | 75 => ⟨S128x224x224, .f32⟩
  | 76 => ⟨S128x224x224, .f32⟩
  | 77 => ⟨S_, .f32⟩
  | 78 => ⟨S128x224x224, .f32⟩
  | 79 => ⟨S128x224x224, .f32⟩
  | 80 => ⟨S128x224x224, .i32⟩
  | 81 => ⟨S128, .i32⟩
  | 82 => ⟨S128x1x1, .i32⟩
  | 83 => ⟨S_, .i32⟩
  | 84 => ⟨S128x1x1, .i32⟩
  | 85 => ⟨S128x1x1, .i1⟩
  | 86 => ⟨S_, .i32⟩
  | 87 => ⟨S128x1x1, .i32⟩
  | 88 => ⟨S128x1x1, .i32⟩
  | 89 => ⟨S128x1x1, .i32⟩
  | 90 => ⟨S_, .i32⟩
  | 91 => ⟨S128x224x224, .i32⟩
  | 92 => ⟨S128x224x224, .i1⟩
  | 93 => ⟨S_, .i32⟩
  | 94 => ⟨S128x224x224, .i32⟩
  | 95 => ⟨S128x224x224, .i32⟩
  | 96 => ⟨S128x224x224, .i32⟩
  | 97 => ⟨S_, .i32⟩
  | 98 => ⟨S128x224x224, .i32⟩
  | 99 => ⟨S128x224x224, .i1⟩
  | 100 => ⟨S_, .i32⟩
  | 101 => ⟨S128x224x224, .i32⟩
  | 102 => ⟨S128x224x224, .i32⟩
  | 103 => ⟨S128x224x224, .i32⟩
  | 104 => ⟨S128x224x224, .i32⟩
  | 105 => ⟨S128x224x224x1, .i32⟩
  | 106 => ⟨S128x224x224x1, .i32⟩
  | 107 => ⟨S128x224x224x1, .i32⟩
  | 108 => ⟨S128x224x224x3, .i32⟩
  | 109 => ⟨S128x224x224x3, .f32⟩
  | 110 => ⟨S_, .i32⟩
  | 111 => ⟨S128x1x1, .i32⟩
  | 112 => ⟨S128x1x1, .i1⟩
  | 113 => ⟨S_, .i32⟩
  | 114 => ⟨S128x1x1, .i32⟩
  | 115 => ⟨S128x1x1, .i32⟩
  | 116 => ⟨S128x1x1, .i32⟩
  | 117 => ⟨S_, .i32⟩
  | 118 => ⟨S128x224x224, .i32⟩
  | 119 => ⟨S128x224x224, .i1⟩
  | 120 => ⟨S_, .i32⟩
  | 121 => ⟨S128x224x224, .i32⟩
  | 122 => ⟨S128x224x224, .i32⟩
  | 123 => ⟨S128x224x224, .i32⟩
  | 124 => ⟨S_, .i32⟩
  | 125 => ⟨S128x224x224, .i32⟩
  | 126 => ⟨S128x224x224, .i1⟩
  | 127 => ⟨S_, .i32⟩
  | _ => ⟨S128x224x224x5, .f32⟩

abbrev hbmTy0_1 (i : Nat) : BufTy := match i % 128 with
  | 0 => ⟨S128x224x224, .i32⟩
  | 1 => ⟨S128x224x224, .i32⟩
  | 2 => ⟨S128x224x224, .i32⟩
  | 3 => ⟨S128x224x224, .i32⟩
  | 4 => ⟨S128x224x224x1, .i32⟩
  | 5 => ⟨S128x224x224x1, .i32⟩
  | 6 => ⟨S128x224x224x1, .i32⟩
  | 7 => ⟨S128x224x224x3, .i32⟩
  | 8 => ⟨S128x224x224x3, .f32⟩
  | 9 => ⟨S_, .i32⟩
  | 10 => ⟨S128x1x1, .i32⟩
  | 11 => ⟨S128x1x1, .i1⟩
  | 12 => ⟨S_, .i32⟩
  | 13 => ⟨S128x1x1, .i32⟩
  | 14 => ⟨S128x1x1, .i32⟩
  | 15 => ⟨S128x1x1, .i32⟩
  | 16 => ⟨S_, .i32⟩
  | 17 => ⟨S128x224x224, .i32⟩
  | 18 => ⟨S128x224x224, .i1⟩
  | 19 => ⟨S_, .i32⟩
  | 20 => ⟨S128x224x224, .i32⟩
  | 21 => ⟨S128x224x224, .i32⟩
  | 22 => ⟨S128x224x224, .i32⟩
  | 23 => ⟨S_, .i32⟩
  | 24 => ⟨S128x224x224, .i32⟩
  | 25 => ⟨S128x224x224, .i1⟩
  | 26 => ⟨S_, .i32⟩
  | 27 => ⟨S128x224x224, .i32⟩
  | 28 => ⟨S128x224x224, .i32⟩
  | 29 => ⟨S128x224x224, .i32⟩
  | 30 => ⟨S128x224x224, .i32⟩
  | 31 => ⟨S128x224x224x1, .i32⟩
  | 32 => ⟨S128x224x224x1, .i32⟩
  | 33 => ⟨S128x224x224x1, .i32⟩
  | 34 => ⟨S128x224x224x3, .i32⟩
  | 35 => ⟨S128x224x224x3, .f32⟩
  | 36 => ⟨S_, .i32⟩
  | 37 => ⟨S128x1x1, .i32⟩
  | 38 => ⟨S128x1x1, .i1⟩
  | 39 => ⟨S_, .i32⟩
  | 40 => ⟨S128x1x1, .i32⟩
  | 41 => ⟨S128x1x1, .i32⟩
  | 42 => ⟨S128x1x1, .i32⟩
  | 43 => ⟨S_, .i32⟩
  | 44 => ⟨S128x224x224, .i32⟩
  | 45 => ⟨S128x224x224, .i1⟩
  | 46 => ⟨S_, .i32⟩
  | 47 => ⟨S128x224x224, .i32⟩
  | 48 => ⟨S128x224x224, .i32⟩
  | 49 => ⟨S128x224x224, .i32⟩
  | 50 => ⟨S_, .i32⟩
  | 51 => ⟨S128x224x224, .i32⟩
  | 52 => ⟨S128x224x224, .i1⟩
  | 53 => ⟨S_, .i32⟩
  | 54 => ⟨S128x224x224, .i32⟩
  | 55 => ⟨S128x224x224, .i32⟩
  | 56 => ⟨S128x224x224, .i32⟩
  | 57 => ⟨S128x224x224, .i32⟩
  | 58 => ⟨S128x224x224x1, .i32⟩
  | 59 => ⟨S128x224x224x1, .i32⟩
  | 60 => ⟨S128x224x224x1, .i32⟩
  | 61 => ⟨S128x224x224x3, .i32⟩
  | 62 => ⟨S128x224x224x3, .f32⟩
  | 63 => ⟨S128x224x224x3, .f32⟩
  | 64 => ⟨S128x224x224x3, .f32⟩
  | 65 => ⟨S128x224x224x3, .f32⟩
  | 66 => ⟨S128x224x224x3, .f32⟩
  | 67 => ⟨S128x224x224x3, .f32⟩
  | 68 => ⟨S128x224x224x3, .f32⟩
  | 69 => ⟨S128x224x224x3, .f32⟩
  | 70 => ⟨S128x224x224x3, .f32⟩
  | 71 => ⟨S128x224x224x3, .f32⟩
  | 72 => ⟨S128x224x224x3, .f32⟩
  | 73 => ⟨S128x224x224x3, .f32⟩
  | _ => ⟨S128x224x224x5, .f32⟩

abbrev hbmTy (i : Nat) : BufTy := match i / 128 with
  | 0 => hbmTy0_0 i
  | 1 => hbmTy0_1 i
  | _ => ⟨S128x224x224x5, .f32⟩

abbrev bufTy : (tb : Table) → Fin (tcTables nBuf tb) → BufTy
  | .hbm, ⟨i, _⟩ => hbmTy i
  | _, _ => ⟨S128x224x224x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c : Ref sig .tc := ⟨.hbm, 30, rfl⟩
abbrev main_call0_v0 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_cst_8 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_cst_10 : Ref sig .tc := ⟨.hbm, 60, rfl⟩
abbrev main_cst_11 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v36 : Ref sig .tc := ⟨.hbm, 67, rfl⟩
abbrev main_v37 : Ref sig .tc := ⟨.hbm, 68, rfl⟩
abbrev main_cst_12 : Ref sig .tc := ⟨.hbm, 69, rfl⟩
abbrev main_v38 : Ref sig .tc := ⟨.hbm, 70, rfl⟩
abbrev main_v39 : Ref sig .tc := ⟨.hbm, 71, rfl⟩
abbrev main_cst_13 : Ref sig .tc := ⟨.hbm, 72, rfl⟩
abbrev main_cst_14 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_15 : Ref sig .tc := ⟨.hbm, 83, rfl⟩
abbrev main_v44 : Ref sig .tc := ⟨.hbm, 84, rfl⟩
abbrev main_v45 : Ref sig .tc := ⟨.hbm, 85, rfl⟩
abbrev main_c_16 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_c_17 : Ref sig .tc := ⟨.hbm, 90, rfl⟩
abbrev main_v49 : Ref sig .tc := ⟨.hbm, 91, rfl⟩
abbrev main_v50 : Ref sig .tc := ⟨.hbm, 92, rfl⟩
abbrev main_c_18 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_19 : Ref sig .tc := ⟨.hbm, 97, rfl⟩
abbrev main_v54 : Ref sig .tc := ⟨.hbm, 98, rfl⟩
abbrev main_v55 : Ref sig .tc := ⟨.hbm, 99, rfl⟩
abbrev main_c_20 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_c_21 : Ref sig .tc := ⟨.hbm, 110, rfl⟩
abbrev main_v65 : Ref sig .tc := ⟨.hbm, 111, rfl⟩
abbrev main_v66 : Ref sig .tc := ⟨.hbm, 112, rfl⟩
abbrev main_c_22 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_c_23 : Ref sig .tc := ⟨.hbm, 117, rfl⟩
abbrev main_v70 : Ref sig .tc := ⟨.hbm, 118, rfl⟩
abbrev main_v71 : Ref sig .tc := ⟨.hbm, 119, rfl⟩
abbrev main_c_24 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_c_25 : Ref sig .tc := ⟨.hbm, 124, rfl⟩
abbrev main_v75 : Ref sig .tc := ⟨.hbm, 125, rfl⟩
abbrev main_v76 : Ref sig .tc := ⟨.hbm, 126, rfl⟩
abbrev main_c_26 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_c_27 : Ref sig .tc := ⟨.hbm, 137, rfl⟩
abbrev main_v86 : Ref sig .tc := ⟨.hbm, 138, rfl⟩
abbrev main_v87 : Ref sig .tc := ⟨.hbm, 139, rfl⟩
abbrev main_c_28 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_c_29 : Ref sig .tc := ⟨.hbm, 144, rfl⟩
abbrev main_v91 : Ref sig .tc := ⟨.hbm, 145, rfl⟩
abbrev main_v92 : Ref sig .tc := ⟨.hbm, 146, rfl⟩
abbrev main_c_30 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_c_31 : Ref sig .tc := ⟨.hbm, 151, rfl⟩
abbrev main_v96 : Ref sig .tc := ⟨.hbm, 152, rfl⟩
abbrev main_v97 : Ref sig .tc := ⟨.hbm, 153, rfl⟩
abbrev main_c_32 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_33 : Ref sig .tc := ⟨.hbm, 164, rfl⟩
abbrev main_v107 : Ref sig .tc := ⟨.hbm, 165, rfl⟩
abbrev main_v108 : Ref sig .tc := ⟨.hbm, 166, rfl⟩
abbrev main_c_34 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_c_35 : Ref sig .tc := ⟨.hbm, 171, rfl⟩
abbrev main_v112 : Ref sig .tc := ⟨.hbm, 172, rfl⟩
abbrev main_v113 : Ref sig .tc := ⟨.hbm, 173, rfl⟩
abbrev main_c_36 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_c_37 : Ref sig .tc := ⟨.hbm, 178, rfl⟩
abbrev main_v117 : Ref sig .tc := ⟨.hbm, 179, rfl⟩
abbrev main_v118 : Ref sig .tc := ⟨.hbm, 180, rfl⟩
abbrev main_c_38 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩

abbrev nD : Nat := 1
abbrev τ : Topo := Topo.v7x

variable {F : FTy → Type} [FloatOps F]

class Facts₀ : Prop where
  slices_S128x224x224x5_S128x224x224x3_0_0_0_0 : S128x224x224x5.Slices ![0, 0, 0, 0] S128x224x224x3
  slices_S128x224x224x5_S128x224x224x1_0_0_0_3 : S128x224x224x5.Slices ![0, 0, 0, 3] S128x224x224x1
  shapeCasts_S128x224x224x1_S128x224x224 : S128x224x224x1.ShapeCasts S128x224x224
  slices_S128x224x224x5_S128x224x224x1_0_0_0_4 : S128x224x224x5.Slices ![0, 0, 0, 4] S128x224x224x1
  bcast_S_S128x224x224 : S_.BroadcastsInDim S128x224x224 (![] : Fin 0 → Fin S128x224x224.rank)
  bcast_S128x224x224_S128x224x224x1_0_1_2 : S128x224x224.BroadcastsInDim S128x224x224x1 (![0, 1, 2] : Fin 3 → Fin S128x224x224x1.rank)
  pads_S128x224x224x3_S128x226x226x3_000_110_110_000 : S128x224x224x3.Pads (![0, 1, 1, 0] : Fin 4 → Nat) ![0, 1, 1, 0] ![0, 0, 0, 0] S128x226x226x3
  h_S_ : 0 < S_.numel
  bcast_S128_S128x1x1_0 : S128.BroadcastsInDim S128x1x1 (![0] : Fin 1 → Fin S128x1x1.rank)
  bcast_S_S128x1x1 : S_.BroadcastsInDim S128x1x1 (![] : Fin 0 → Fin S128x1x1.rank)
  bcast_S128x1x1_S128x224x224_0_1_2 : S128x1x1.BroadcastsInDim S128x224x224 (![0, 1, 2] : Fin 3 → Fin S128x224x224.rank)
  concatenates_S128x224x224x1_S128x224x224x1_S128x224x224x1_S128x224x224x3_d3 : Shape.Concatenates [S128x224x224x1, S128x224x224x1, S128x224x224x1] S128x224x224x3 3
  bcast_S128x224x224x1_S128x224x224x3_0_1_2_3 : S128x224x224x1.BroadcastsInDim S128x224x224x3 (![0, 1, 2, 3] : Fin 4 → Fin S128x224x224x3.rank)
  gather_S128x226x226x3_S128x224x224x3_S128x224x224x3_3_012_n_n_012_3_1113_wf : GatherDims.WF S128x226x226x3 S128x224x224x3 S128x224x224x3 [3] [0, 1, 2] [] [0, 1, 2] [] 3 ![1, 1, 1, 3]

variable [Facts₀]

def gather_S128x226x226x3_S128x224x224x3_S128x224x224x3_3_012_n_n_012_3_1113 : GatherDims S128x226x226x3 S128x224x224x3 S128x224x224x3 where
  offsetDims := [3]
  collapsedSliceDims := [0, 1, 2]
  operandBatchingDims := []
  startIndicesBatchingDims := []
  startIndexMap := [0, 1, 2]
  indexVectorDim := 3
  sliceSizes := ![1, 1, 1, 3]
  wf := gather_S128x226x226x3_S128x224x224x3_S128x224x224x3_3_012_n_n_012_3_1113_wf

class Facts : Prop extends Facts₀ where

variable [Facts]
-- ==== Proof.BitsFrame.lean ====
/-
  The frame run of `Kernel`: the host operations that come before the one kernel region, the region's
  nine windows (four gathered corner images, four bilinear weights, one result), the kernel body's triple,
  the proof data of the pipeline, and the run to the library's frame post. Stated at any float instance.

  The body at a grid point loads the eight input blocks whole, multiplies each corner block by its weight
  block broadcast along the channel axis, adds the four products left to right, and stores the sum over the
  whole result block; so after the body the result window's buffer is that one payload of the input blocks.
-/
import proofs.«110315_j48232482734312_1_alg».proof.Proof.Gen.Kernel.Launch
import proofs.«110315_j48232482734312_1_alg».proof.Proof.Gen.Kernel.Skeleton
import proofs.«110315_j48232482734312_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Every host stretch before the region, in program order. -/
abbrev stretches : List (List (HloOp τ sig (Elt F))) :=
  [hostOps0, hostOps0_1, hostOps0_2, hostOps0_3, hostOps0_4, hostOps0_5, hostOps0_6, hostOps0_7, hostOps0_8, hostOps0_9, hostOps0_10]

/-- Core `c`'s buffers when the region is entered: the launch memory after every host operation. -/
abbrev V (c : Dev nD) (b : Ref sig .tc) : Buf (Elt F) ((c : Thread nD τ).loc b) :=
  StableHlo.after (List.flatten (stretches (F := F))) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor
theorem fresh7 : (hostOps0_7 : List (HloOp τ sig (Elt F))).Forall fun op => op.fresh = ∅ := by
  simp only [List.Forall]; repeat' constructor
theorem fresh8 : (hostOps0_8 : List (HloOp τ sig (Elt F))).Forall fun op => op.fresh = ∅ := by
  simp only [List.Forall]; repeat' constructor
theorem fresh9 : (hostOps0_9 : List (HloOp τ sig (Elt F))).Forall fun op => op.fresh = ∅ := by
  simp only [List.Forall]; repeat' constructor
set_option maxHeartbeats 4000000 in
theorem fresh10 : (hostOps0_10 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨fresh0, fresh1, fresh2, fresh3, fresh4, fresh5, fresh6, fresh7, fresh8, fresh9, fresh10⟩) main_chain

set_option maxHeartbeats 4000000 in
/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data over these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data over these arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data over these arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data over these arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data over these arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data over these arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for any proof data over these arrays whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for any proof data over these arrays whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result window's buffer -/

abbrev whole3 : Rect S4x224x224x3 := Rect.unit (s := S4x224x224x3) ![0, 0, 0, 0] S4x224x224x3.size inb_S4x224x224x3_S4x224x224x3_0_0_0_0
abbrev whole1 : Rect S4x224x224x1 := Rect.unit (s := S4x224x224x1) ![0, 0, 0, 0] S4x224x224x1.size inb_S4x224x224x1_S4x224x224x1_0_0_0_0

/-- The result block from the eight input blocks: the one store, over the whole block, of the weighted sum. -/
def outBlock (x0 x1 x2 x3 : Vec F S4x224x224x3 .f32) (x4 x5 x6 x7 : Vec F S4x224x224x1 .f32) : Vec F S4x224x224x3 .f32 :=
  View.canon [⟨whole3, k0_pay1 (View.ld x4 whole1) (View.ld x0 whole3) (View.ld x5 whole1) (View.ld x1 whole3) (View.ld x6 whole1) (View.ld x2 whole3) (View.ld x7 whole1) (View.ld x3 whole3)⟩]

/-- The one store covers the block. -/
theorem outCover (p0 : Vec F S4x224x224x3 .f32) (y : S4x224x224x3.Idx) :
    ∃ pc ∈ ([⟨whole3, p0⟩] : List (View.Piece (Elt F) S4x224x224x3 .f32)), y ∈ pc.1.set :=
  View.cover_of_tiled [⟨whole3, p0⟩] S4x224x224x3.size (by rfl) y

/-! ## The body's triple -/

set_option maxHeartbeats 4000000 in
/-- The kernel body on whole staging memrefs, the inputs' at contents `xW` and the result's at anything, runs to the
    continuation with the inputs' as they were and the result's at `outBlock` of the inputs'. -/
theorem sound_kernel (c : Dev nD) (E : Set ℕ) (i : grid0.Coords)
    (arg1 : Memref sig .tc .vmem S4x224x224x3 .f32) (harg1 : arg1.IsWhole) (arg2 : Memref sig .tc .vmem S4x224x224x3 .f32) (harg2 : arg2.IsWhole)
    (arg3 : Memref sig .tc .vmem S4x224x224x3 .f32) (harg3 : arg3.IsWhole) (arg4 : Memref sig .tc .vmem S4x224x224x3 .f32) (harg4 : arg4.IsWhole)
    (arg5 : Memref sig .tc .vmem S4x224x224x1 .f32) (harg5 : arg5.IsWhole) (arg6 : Memref sig .tc .vmem S4x224x224x1 .f32) (harg6 : arg6.IsWhole)
    (arg7 : Memref sig .tc .vmem S4x224x224x1 .f32) (harg7 : arg7.IsWhole) (arg8 : Memref sig .tc .vmem S4x224x224x1 .f32) (harg8 : arg8.IsWhole)
    (arg9 : Memref sig .tc .vmem S4x224x224x3 .f32) (harg9 : arg9.IsWhole)
    (x0 x1 x2 x3 : Vec F S4x224x224x3 .f32) (x4 x5 x6 x7 : Vec F S4x224x224x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (outBlock x0 x1 x2 x3 x4 x5 x6 x7)) -∗ K ⟨⟩))
      ⊢ wp frame (wpE (defs₀ (F := F)) Variants.none c none) E (cc0__combine_kernel i arg1 harg1 arg2 harg2 arg3 harg3 arg4 harg4 arg5 harg5 arg6 harg6 arg7 harg7 arg8 harg8 arg9 harg9) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (outCover _)

/-! ## The pipeline's proof data -/

/-- The proof data on core `c`: the arrays as the region finds them; after the body at point `t` each input's buffer at
    its block and the result's at `outBlock` of the input blocks; the invariant is the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the argument array is as launched: no window stages it and no host operation writes it. -/
theorem kept_arg (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).2 main_arg0 (Pipeline.mem_restRefs_of main_arg0 (by decide) (by decide))).trans (V_main_arg0 m c)

/-- The frame: @main runs to the end, faults nowhere and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_arg m r h c) (run_main m ρ)

end Cert.Kernel.Combine

end
-- ==== Proof.IdealFrame.lean ====
/-
  The frame run of `KernelIdeal`: the host operations that come before the one kernel region, the region's
  nine windows (four gathered corner images, four bilinear weights, one result), the kernel body's triple,
  the proof data of the pipeline, and the run to the library's frame post. Stated at any float instance.

  The body at a grid point loads the eight input blocks whole, multiplies each corner block by its weight
  block broadcast along the channel axis, adds the four products left to right, and stores the sum over the
  whole result block; so after the body the result window's buffer is that one payload of the input blocks.
-/
import proofs.«110315_j48232482734312_1_alg».proof.Proof.Gen.KernelIdeal.Launch
import proofs.«110315_j48232482734312_1_alg».proof.Proof.Gen.KernelIdeal.Skeleton
import proofs.«110315_j48232482734312_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Every host stretch before the region, in program order. -/
abbrev stretches : List (List (HloOp τ sig (Elt F))) :=
  [hostOps0, hostOps0_1, hostOps0_2, hostOps0_3, hostOps0_4, hostOps0_5, hostOps0_6, hostOps0_7, hostOps0_8, hostOps0_9, hostOps0_10]

/-- Core `c`'s buffers when the region is entered: the launch memory after every host operation. -/
abbrev V (c : Dev nD) (b : Ref sig .tc) : Buf (Elt F) ((c : Thread nD τ).loc b) :=
  StableHlo.after (List.flatten (stretches (F := F))) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor
theorem fresh7 : (hostOps0_7 : List (HloOp τ sig (Elt F))).Forall fun op => op.fresh = ∅ := by
  simp only [List.Forall]; repeat' constructor
theorem fresh8 : (hostOps0_8 : List (HloOp τ sig (Elt F))).Forall fun op => op.fresh = ∅ := by
  simp only [List.Forall]; repeat' constructor
theorem fresh9 : (hostOps0_9 : List (HloOp τ sig (Elt F))).Forall fun op => op.fresh = ∅ := by
  simp only [List.Forall]; repeat' constructor
set_option maxHeartbeats 4000000 in
theorem fresh10 : (hostOps0_10 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨fresh0, fresh1, fresh2, fresh3, fresh4, fresh5, fresh6, fresh7, fresh8, fresh9, fresh10⟩) main_chain

set_option maxHeartbeats 4000000 in
/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data over these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data over these arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data over these arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data over these arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data over these arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data over these arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for any proof data over these arrays whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for any proof data over these arrays whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result window's buffer -/

abbrev whole3 : Rect S4x224x224x3 := Rect.unit (s := S4x224x224x3) ![0, 0, 0, 0] S4x224x224x3.size inb_S4x224x224x3_S4x224x224x3_0_0_0_0
abbrev whole1 : Rect S4x224x224x1 := Rect.unit (s := S4x224x224x1) ![0, 0, 0, 0] S4x224x224x1.size inb_S4x224x224x1_S4x224x224x1_0_0_0_0

/-- The result block from the eight input blocks: the one store, over the whole block, of the weighted sum. -/
def outBlock (x0 x1 x2 x3 : Vec F S4x224x224x3 .f32) (x4 x5 x6 x7 : Vec F S4x224x224x1 .f32) : Vec F S4x224x224x3 .f32 :=
  View.canon [⟨whole3, k0_pay1 (View.ld x4 whole1) (View.ld x0 whole3) (View.ld x5 whole1) (View.ld x1 whole3) (View.ld x6 whole1) (View.ld x2 whole3) (View.ld x7 whole1) (View.ld x3 whole3)⟩]

/-- The one store covers the block. -/
theorem outCover (p0 : Vec F S4x224x224x3 .f32) (y : S4x224x224x3.Idx) :
    ∃ pc ∈ ([⟨whole3, p0⟩] : List (View.Piece (Elt F) S4x224x224x3 .f32)), y ∈ pc.1.set :=
  View.cover_of_tiled [⟨whole3, p0⟩] S4x224x224x3.size (by rfl) y

/-! ## The body's triple -/

set_option maxHeartbeats 4000000 in
/-- The kernel body on whole staging memrefs, the inputs' at contents `xW` and the result's at anything, runs to the
    continuation with the inputs' as they were and the result's at `outBlock` of the inputs'. -/
theorem sound_kernel (c : Dev nD) (E : Set ℕ) (i : grid0.Coords)
    (arg1 : Memref sig .tc .vmem S4x224x224x3 .f32) (harg1 : arg1.IsWhole) (arg2 : Memref sig .tc .vmem S4x224x224x3 .f32) (harg2 : arg2.IsWhole)
    (arg3 : Memref sig .tc .vmem S4x224x224x3 .f32) (harg3 : arg3.IsWhole) (arg4 : Memref sig .tc .vmem S4x224x224x3 .f32) (harg4 : arg4.IsWhole)
    (arg5 : Memref sig .tc .vmem S4x224x224x1 .f32) (harg5 : arg5.IsWhole) (arg6 : Memref sig .tc .vmem S4x224x224x1 .f32) (harg6 : arg6.IsWhole)
    (arg7 : Memref sig .tc .vmem S4x224x224x1 .f32) (harg7 : arg7.IsWhole) (arg8 : Memref sig .tc .vmem S4x224x224x1 .f32) (harg8 : arg8.IsWhole)
    (arg9 : Memref sig .tc .vmem S4x224x224x3 .f32) (harg9 : arg9.IsWhole)
    (x0 x1 x2 x3 : Vec F S4x224x224x3 .f32) (x4 x5 x6 x7 : Vec F S4x224x224x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (outBlock x0 x1 x2 x3 x4 x5 x6 x7)) -∗ K ⟨⟩))
      ⊢ wp frame (wpE (defs₀ (F := F)) Variants.none c none) E (cc0__combine_kernel i arg1 harg1 arg2 harg2 arg3 harg3 arg4 harg4 arg5 harg5 arg6 harg6 arg7 harg7 arg8 harg8 arg9 harg9) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (outCover _)

/-! ## The pipeline's proof data -/

/-- The proof data on core `c`: the arrays as the region finds them; after the body at point `t` each input's buffer at
    its block and the result's at `outBlock` of the input blocks; the invariant is the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the argument array is as launched: no window stages it and no host operation writes it. -/
theorem kept_arg (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).2 main_arg0 (Pipeline.mem_restRefs_of main_arg0 (by decide) (by decide))).trans (V_main_arg0 m c)

/-- The frame: @main runs to the end, faults nowhere and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_arg m r h c) (run_main m ρ)

end Cert.KernelIdeal.Combine

end
-- ==== Proof.Sampler.lean ====
/-
  Bilinear sampling over a zero-padded image, as one function of the argument array: the specification both
  programs are read against.

  The argument `x : f32[128, 224, 224, 5]` carries per pixel three image channels and two sampling coordinates
  `X`, `Y`. With `fx = X - ⌊X⌋` and `fy = Y - ⌊Y⌋`, the four corner weights are `(1 - fx)(1 - fy)`,
  `(1 - fx) fy`, `fx (1 - fy)`, `fx fy`; the four corners are read from the image padded by one zero pixel on
  each side of both spatial axes, at row `clip(⌊Y⌋ + ky, 0, 224)` and column `clip(⌊X⌋ + kx, 0, 224)` for
  `ky, kx ∈ {1, 2}` (a negative index wrapped by the axis length, which never fires after the clip); the result
  is the weighted sum of the corners, added left to right: top-left, bottom-left, top-right, bottom-right.
  Every operation is the host's own, so the terms below are, operation for operation, what the reference's
  run composes and what the kernel's host operations leave in the arrays its region stages.
-/
import proofs.«110315_j48232482734312_1_alg».proof.Proof.Gen.ReferenceIdeal
import Idealize.ShloMosaic.Lib.Pipeline.Value

noncomputable section

namespace Cert.ReferenceIdeal.Sampler

open Cert.ReferenceIdeal Cert.ReferenceIdeal.Gen Idealize.ShloMosaic Idealize.ShloMosaic.TcCoe Idealize.SL.Sem Idealize.ShloMosaic.StableHlo

variable {F : FTy → Type} [FloatOps F]

/-- The column coordinate of every pixel: channel 3. -/
def coordX (x : FVec F S128x224x224x5 .f32) : FVec F S128x224x224 .f32 :=
  shapeCast _ (extractStridedSlice S128x224x224x1 ![0, 0, 0, 3] x slices_S128x224x224x5_S128x224x224x1_0_0_0_3) shapeCasts_S128x224x224x1_S128x224x224

/-- The row coordinate of every pixel: channel 4. -/
def coordY (x : FVec F S128x224x224x5 .f32) : FVec F S128x224x224 .f32 :=
  shapeCast _ (extractStridedSlice S128x224x224x1 ![0, 0, 0, 4] x slices_S128x224x224x5_S128x224x224x1_0_0_0_4) shapeCasts_S128x224x224x1_S128x224x224

/-- The fractional part `u - ⌊u⌋`. -/
def frac (u : FVec F S128x224x224 .f32) : FVec F S128x224x224 .f32 := subf u (Host.floor u)

/-- Its complement `1 - (u - ⌊u⌋)`. -/
def cofrac (u : FVec F S128x224x224 .f32) : FVec F S128x224x224 .f32 :=
  subf (broadcastInDim S128x224x224 ![] bcast_S_S128x224x224 (constant S_ .f32 0x3F800000#32)) (frac u)

/-- A per-pixel value given a trailing unit axis. -/
def perPixel {α : Type} (v : S128x224x224.Idx → α) : S128x224x224x1.Idx → α :=
  broadcastInDim S128x224x224x1 ![0, 1, 2] bcast_S128x224x224_S128x224x224x1_0_1_2 v

/-- The four corner weights. -/
def weightTL (x : FVec F S128x224x224x5 .f32) : FVec F S128x224x224x1 .f32 := perPixel (mulf (cofrac (coordX x)) (cofrac (coordY x)))
def weightBL (x : FVec F S128x224x224x5 .f32) : FVec F S128x224x224x1 .f32 := perPixel (mulf (cofrac (coordX x)) (frac (coordY x)))
def weightTR (x : FVec F S128x224x224x5 .f32) : FVec F S128x224x224x1 .f32 := perPixel (mulf (frac (coordX x)) (cofrac (coordY x)))
def weightBR (x : FVec F S128x224x224x5 .f32) : FVec F S128x224x224x1 .f32 := perPixel (mulf (frac (coordX x)) (frac (coordY x)))

/-- `clip(⌊u⌋ + k, 0, 224)` as a 32-bit integer, `k` given by its f32 word. -/
def clipIdx (u : FVec F S128x224x224 .f32) (k : BitVec 32) : IVec S128x224x224 32 :=
  fptosi 32 (minimumf (broadcastInDim S128x224x224 ![] bcast_S_S128x224x224 (id (constant S_ .f32 0x43600000#32)))
    (maximumf (broadcastInDim S128x224x224 ![] bcast_S_S128x224x224 (id (constant S_ .f32 0x00000000#32)))
      (addf (Host.floor u) (broadcastInDim S128x224x224 ![] bcast_S_S128x224x224 (constant S_ .f32 k)))))

/-- A negative index taken from the far end of an axis of length 226. -/
def wrapIdx (v : IVec S128x224x224 32) : IVec S128x224x224 32 :=
  select (cmpi .slt v (broadcastInDim S128x224x224 ![] bcast_S_S128x224x224 (constantI S_ 32 0#32)))
    (addi v (broadcastInDim S128x224x224 ![] bcast_S_S128x224x224 (constantI S_ 32 226#32))) v

/-- The batch index of every pixel, with the same wrap by the batch size. -/
def batchIdx : IVec S128x224x224x1 32 :=
  perPixel (broadcastInDim S128x224x224 ![0, 1, 2] bcast_S128x1x1_S128x224x224_0_1_2
    (select (cmpi .slt (broadcastInDim S128x1x1 ![0] bcast_S128_S128x1x1_0 (iotaInDim S128 32 0)) (broadcastInDim S128x1x1 ![] bcast_S_S128x1x1 (constantI S_ 32 0#32)))
      (addi (broadcastInDim S128x1x1 ![0] bcast_S128_S128x1x1_0 (iotaInDim S128 32 0)) (broadcastInDim S128x1x1 ![] bcast_S_S128x1x1 (constantI S_ 32 128#32)))
      (broadcastInDim S128x1x1 ![0] bcast_S128_S128x1x1_0 (iotaInDim S128 32 0))))

/-- The image channels, padded by one zero pixel on each side of both spatial axes. -/
def padded (x : FVec F S128x224x224x5 .f32) : FVec F S128x226x226x3 .f32 :=
  pad S128x226x226x3 ![0, 1, 1, 0] ![0, 1, 1, 0] ![0, 0, 0, 0]
    (extractStridedSlice S128x224x224x3 ![0, 0, 0, 0] x slices_S128x224x224x5_S128x224x224x3_0_0_0_0)
    (sitofp .f32 (constantI S_ 32 0#32)) pads_S128x224x224x3_S128x226x226x3_000_110_110_000 h_S_

/-- The corner image at row offset `ky` and column offset `kx`: every pixel's three channels gathered from the
    padded image at (batch, clipped row, clipped column). -/
def corner (x : FVec F S128x224x224x5 .f32) (ky kx : BitVec 32) : FVec F S128x224x224x3 .f32 :=
  Host.gather gather_S128x226x226x3_S128x224x224x3_S128x224x224x3_3_012_n_n_012_3_1113 (padded x)
    (concatenate S128x224x224x3 3 [⟨S128x224x224x1, batchIdx⟩, ⟨S128x224x224x1, perPixel (wrapIdx (clipIdx (coordY x) ky))⟩,
      ⟨S128x224x224x1, perPixel (wrapIdx (clipIdx (coordX x) kx))⟩] concatenates_S128x224x224x1_S128x224x224x1_S128x224x224x1_S128x224x224x3_d3)

/-- The weighted sum of four corner images, each weight broadcast along the channel axis, added left to right. -/
def blend (a0 a1 a2 a3 : FVec F S128x224x224x3 .f32) (w0 w1 w2 w3 : FVec F S128x224x224x1 .f32) : FVec F S128x224x224x3 .f32 :=
  addf (addf (addf (mulf (broadcastInDim S128x224x224x3 ![0, 1, 2, 3] bcast_S128x224x224x1_S128x224x224x3_0_1_2_3 w0) a0)
      (mulf (broadcastInDim S128x224x224x3 ![0, 1, 2, 3] bcast_S128x224x224x1_S128x224x224x3_0_1_2_3 w1) a1))
      (mulf (broadcastInDim S128x224x224x3 ![0, 1, 2, 3] bcast_S128x224x224x1_S128x224x224x3_0_1_2_3 w2) a2))
    (mulf (broadcastInDim S128x224x224x3 ![0, 1, 2, 3] bcast_S128x224x224x1_S128x224x224x3_0_1_2_3 w3) a3)

/-- The sampled image. The f32 words `0x3F800000` and `0x40000000` are the offsets 1 and 2. -/
def sample (x : FVec F S128x224x224x5 .f32) : FVec F S128x224x224x3 .f32 :=
  blend (corner x 0x3F800000#32 0x3F800000#32) (corner x 0x40000000#32 0x3F800000#32) (corner x 0x3F800000#32 0x40000000#32) (corner x 0x40000000#32 0x40000000#32)
    (weightTL x) (weightBL x) (weightTR x) (weightBR x)

/-- The channel-axis broadcast of a per-pixel array, read at a pixel's channel, is the array at that pixel. -/
theorem lift_apply {α : Type} (w : S128x224x224x1.Idx → α) (i : S128x224x224x3.Idx) (k : S128x224x224x1.Idx)
    (h0 : (k 0).val = (i 0).val) (h1 : (k 1).val = (i 1).val) (h2 : (k 2).val = (i 2).val) (h3 : (k 3).val = 0) :
    broadcastInDim S128x224x224x3 ![0, 1, 2, 3] bcast_S128x224x224x1_S128x224x224x3_0_1_2_3 w i = w k := by
  refine broadcastInDim_apply _ _ w i k fun a => ?_
  match a with
  | ⟨0, _⟩ => exact h0
  | ⟨1, _⟩ => exact h1
  | ⟨2, _⟩ => exact h2
  | ⟨3, _⟩ => exact h3

/-- The blend at one channel of one pixel: the four corner values there, each times its weight at the pixel. -/
theorem blend_apply (a0 a1 a2 a3 : FVec F S128x224x224x3 .f32) (w0 w1 w2 w3 : FVec F S128x224x224x1 .f32)
    (i : S128x224x224x3.Idx) (k : S128x224x224x1.Idx)
    (h0 : (k 0).val = (i 0).val) (h1 : (k 1).val = (i 1).val) (h2 : (k 2).val = (i 2).val) (h3 : (k 3).val = 0) :
    blend a0 a1 a2 a3 w0 w1 w2 w3 i
      = FloatOps.addf (FloatOps.addf (FloatOps.addf (FloatOps.mulf (w0 k) (a0 i)) (FloatOps.mulf (w1 k) (a1 i))) (FloatOps.mulf (w2 k) (a2 i))) (FloatOps.mulf (w3 k) (a3 i)) := by
  unfold blend
  show FloatOps.addf (FloatOps.addf (FloatOps.addf
        (FloatOps.mulf (broadcastInDim S128x224x224x3 ![0, 1, 2, 3] bcast_S128x224x224x1_S128x224x224x3_0_1_2_3 w0 i) (a0 i))
        (FloatOps.mulf (broadcastInDim S128x224x224x3 ![0, 1, 2, 3] bcast_S128x224x224x1_S128x224x224x3_0_1_2_3 w1 i) (a1 i)))
        (FloatOps.mulf (broadcastInDim S128x224x224x3 ![0, 1, 2, 3] bcast_S128x224x224x1_S128x224x224x3_0_1_2_3 w2 i) (a2 i)))
        (FloatOps.mulf (broadcastInDim S128x224x224x3 ![0, 1, 2, 3] bcast_S128x224x224x1_S128x224x224x3_0_1_2_3 w3 i) (a3 i)) = _
  rw [lift_apply w0 i k h0 h1 h2 h3, lift_apply w1 i k h0 h1 h2 h3, lift_apply w2 i k h0 h1 h2 h3, lift_apply w3 i k h0 h1 h2 h3]

end Cert.ReferenceIdeal.Sampler

end
-- ==== Proof.IdealValue.lean ====
/-
  What the idealized kernel's result array holds after the run: the blend of the four corner arrays with the four
  weight arrays, as the region finds them.

  At grid point `t` every window's block is images `4t … 4t + 3` of its array, whole along the other axes, so the
  payload of the point's eight input blocks, read at an index of the block, is the blend of the eight arrays read
  at the same index of the array; the 32 result blocks tile the result array along the batch axis.
-/
import proofs.«110315_j48232482734312_1_alg».proof.Proof.IdealFrame
import proofs.«110315_j48232482734312_1_alg».proof.Proof.Sampler
import Idealize.ShloMosaic.Lib.Pipeline.Value
import Idealize.ShloMosaic.Lib.ValueIdx

set_option maxRecDepth 16384

noncomputable section

namespace Cert.KernelIdeal.Combine

open Cert.KernelIdeal Cert.KernelIdeal.Gen Idealize.ShloMosaic Idealize.ShloMosaic.TcCoe Idealize.SL.Sem
open Idealize.ShloMosaic.Pipeline (Dat)
open Cert.ReferenceIdeal.Sampler (blend blend_apply)

variable {F : FTy → Type} [FloatOps F]
variable (m : (ℓ : Loc nD τ sig) → Buf (Elt F) ℓ) (ρ : Dev nD → PrngReg)

theorem hz4 : (![0, 0, 0, 0] : Fin 4 → Nat) = fun _ => 0 := funext fun a => by fin_cases a <;> rfl

/-- The pixel under a channel index of a block: the same image, row and column, on the unit trailing axis. -/
def pixelOf (j : S4x224x224x3.Idx) : S4x224x224x1.Idx :=
  ValueIdx.ix4 (n0 := 4) (n1 := 224) (n2 := 224) (n3 := 1) (j 0) (j 1) (j 2) 0

/-- A weight block broadcast along the channel axis, read at a channel index, is the block at the pixel. -/
theorem lane_apply (v : Vec F S4x224x224x1 .f32) (j : S4x224x224x3.Idx) :
    broadcastTo S4x224x224x3 v broadcasts_S4x224x224x1_S4x224x224x3 j = v (pixelOf j) := by
  refine broadcastTo_apply v _ j (pixelOf j) fun a => ?_
  match a with
  | ⟨0, _⟩ => rfl
  | ⟨1, _⟩ => rfl
  | ⟨2, _⟩ => rfl
  | ⟨3, _⟩ => rfl

/-- The body's payload at an index of the block: the four corner blocks there, each times its weight block at the pixel,
    added left to right. -/
theorem pay_apply (v0 : Vec F S4x224x224x1 .f32) (v2 : Vec F S4x224x224x3 .f32) (v6 : Vec F S4x224x224x1 .f32) (v8 : Vec F S4x224x224x3 .f32)
    (v13 : Vec F S4x224x224x1 .f32) (v15 : Vec F S4x224x224x3 .f32) (v20 : Vec F S4x224x224x1 .f32) (v22 : Vec F S4x224x224x3 .f32) (j : S4x224x224x3.Idx) :
    k0_pay1 v0 v2 v6 v8 v13 v15 v20 v22 j
      = FloatOps.addf (FloatOps.addf (FloatOps.addf (FloatOps.mulf (v0 (pixelOf j)) (v2 j)) (FloatOps.mulf (v6 (pixelOf j)) (v8 j)))
          (FloatOps.mulf (v13 (pixelOf j)) (v15 j))) (FloatOps.mulf (v20 (pixelOf j)) (v22 j)) := by
  unfold k0_pay1
  simp only [shapeCast_self]
  show FloatOps.addf (FloatOps.addf (FloatOps.addf
        (FloatOps.mulf (broadcastTo S4x224x224x3 v0 broadcasts_S4x224x224x1_S4x224x224x3 j) (v2 j))
        (FloatOps.mulf (broadcastTo S4x224x224x3 v6 broadcasts_S4x224x224x1_S4x224x224x3 j) (v8 j)))
        (FloatOps.mulf (broadcastTo S4x224x224x3 v13 broadcasts_S4x224x224x1_S4x224x224x3 j) (v15 j)))
        (FloatOps.mulf (broadcastTo S4x224x224x3 v20 broadcasts_S4x224x224x1_S4x224x224x3 j) (v22 j)) = _
  rw [lane_apply v0 j, lane_apply v6 j, lane_apply v13 j, lane_apply v20 j]

/-! ## The index maps, decided over the grid -/

theorem idx_w0 : ∀ t : Fin cfg0.N, win0_0.index t (0 : Fin 4) = win0_8.index t (0 : Fin 4) ∧ win0_0.index t (1 : Fin 4) = win0_8.index t (1 : Fin 4)
    ∧ win0_0.index t (2 : Fin 4) = win0_8.index t (2 : Fin 4) ∧ win0_0.index t (3 : Fin 4) = win0_8.index t (3 : Fin 4) :=
  (by decide +kernel : ∀ t : Fin grid0.N, _)
theorem idx_w1 : ∀ t : Fin cfg0.N, win0_1.index t (0 : Fin 4) = win0_8.index t (0 : Fin 4) ∧ win0_1.index t (1 : Fin 4) = win0_8.index t (1 : Fin 4)
    ∧ win0_1.index t (2 : Fin 4) = win0_8.index t (2 : Fin 4) ∧ win0_1.index t (3 : Fin 4) = win0_8.index t (3 : Fin 4) :=
  (by decide +kernel : ∀ t : Fin grid0.N, _)
theorem idx_w2 : ∀ t : Fin cfg0.N, win0_2.index t (0 : Fin 4) = win0_8.index t (0 : Fin 4) ∧ win0_2.index t (1 : Fin 4) = win0_8.index t (1 : Fin 4)
    ∧ win0_2.index t (2 : Fin 4) = win0_8.index t (2 : Fin 4) ∧ win0_2.index t (3 : Fin 4) = win0_8.index t (3 : Fin 4) :=
  (by decide +kernel : ∀ t : Fin grid0.N, _)
theorem idx_w3 : ∀ t : Fin cfg0.N, win0_3.index t (0 : Fin 4) = win0_8.index t (0 : Fin 4) ∧ win0_3.index t (1 : Fin 4) = win0_8.index t (1 : Fin 4)
    ∧ win0_3.index t (2 : Fin 4) = win0_8.index t (2 : Fin 4) ∧ win0_3.index t (3 : Fin 4) = win0_8.index t (3 : Fin 4) :=
  (by decide +kernel : ∀ t : Fin grid0.N, _)
theorem idx_w4 : ∀ t : Fin cfg0.N, win0_4.index t (0 : Fin 4) = win0_8.index t (0 : Fin 4) ∧ win0_4.index t (1 : Fin 4) = win0_8.index t (1 : Fin 4)
    ∧ win0_4.index t (2 : Fin 4) = win0_8.index t (2 : Fin 4) ∧ win0_4.index t (3 : Fin 4) = win0_8.index t (3 : Fin 4) :=
  (by decide +kernel : ∀ t : Fin grid0.N, _)
theorem idx_w5 : ∀ t : Fin cfg0.N, win0_5.index t (0 : Fin 4) = win0_8.index t (0 : Fin 4) ∧ win0_5.index t (1 : Fin 4) = win0_8.index t (1 : Fin 4)
    ∧ win0_5.index t (2 : Fin 4) = win0_8.index t (2 : Fin 4) ∧ win0_5.index t (3 : Fin 4) = win0_8.index t (3 : Fin 4) :=
  (by decide +kernel : ∀ t : Fin grid0.N, _)
theorem idx_w6 : ∀ t : Fin cfg0.N, win0_6.index t (0 : Fin 4) = win0_8.index t (0 : Fin 4) ∧ win0_6.index t (1 : Fin 4) = win0_8.index t (1 : Fin 4)
    ∧ win0_6.index t (2 : Fin 4) = win0_8.index t (2 : Fin 4) ∧ win0_6.index t (3 : Fin 4) = win0_8.index t (3 : Fin 4) :=
  (by decide +kernel : ∀ t : Fin grid0.N, _)
theorem idx_w7 : ∀ t : Fin cfg0.N, win0_7.index t (0 : Fin 4) = win0_8.index t (0 : Fin 4) ∧ win0_7.index t (1 : Fin 4) = win0_8.index t (1 : Fin 4)
    ∧ win0_7.index t (2 : Fin 4) = win0_8.index t (2 : Fin 4) ∧ win0_7.index t (3 : Fin 4) = win0_8.index t (3 : Fin 4) :=
  (by decide +kernel : ∀ t : Fin grid0.N, _)
/-- The result window's block index is the grid point along the batch axis and zero along the others. -/
theorem idx_out : ∀ t : Fin cfg0.N, win0_8.index t (0 : Fin 4) = t.val ∧ win0_8.index t (1 : Fin 4) = 0
    ∧ win0_8.index t (2 : Fin 4) = 0 ∧ win0_8.index t (3 : Fin 4) = 0 :=
  (by decide +kernel : ∀ t : Fin grid0.N, _)

/-- Corner window 0's block sits in its array where the result's block sits in the result array. -/
theorem emb0 (t : Fin cfg0.N) (j : S4x224x224x3.Idx) : ((cfg0.win 0).blk t).view.emb j = ((cfg0.win 8).blk t).view.emb j := by
  obtain ⟨e0, e1, e2, e3⟩ := idx_w0 t
  funext a; apply Fin.ext
  match a with
  | ⟨0, _⟩ => show win0_0.index t (0 : Fin 4) * 4 + 1 * (j 0).val = win0_8.index t (0 : Fin 4) * 4 + 1 * (j 0).val; omega
  | ⟨1, _⟩ => show win0_0.index t (1 : Fin 4) * 224 + 1 * (j 1).val = win0_8.index t (1 : Fin 4) * 224 + 1 * (j 1).val; omega
  | ⟨2, _⟩ => show win0_0.index t (2 : Fin 4) * 224 + 1 * (j 2).val = win0_8.index t (2 : Fin 4) * 224 + 1 * (j 2).val; omega
  | ⟨3, _⟩ => show win0_0.index t (3 : Fin 4) * 3 + 1 * (j 3).val = win0_8.index t (3 : Fin 4) * 3 + 1 * (j 3).val; omega
/-- Corner window 1's block sits in its array where the result's block sits in the result array. -/
theorem emb1 (t : Fin cfg0.N) (j : S4x224x224x3.Idx) : ((cfg0.win 1).blk t).view.emb j = ((cfg0.win 8).blk t).view.emb j := by
  obtain ⟨e0, e1, e2, e3⟩ := idx_w1 t
  funext a; apply Fin.ext
  match a with
  | ⟨0, _⟩ => show win0_1.index t (0 : Fin 4) * 4 + 1 * (j 0).val = win0_8.index t (0 : Fin 4) * 4 + 1 * (j 0).val; omega
  | ⟨1, _⟩ => show win0_1.index t (1 : Fin 4) * 224 + 1 * (j 1).val = win0_8.index t (1 : Fin 4) * 224 + 1 * (j 1).val; omega
  | ⟨2, _⟩ => show win0_1.index t (2 : Fin 4) * 224 + 1 * (j 2).val = win0_8.index t (2 : Fin 4) * 224 + 1 * (j 2).val; omega
  | ⟨3, _⟩ => show win0_1.index t (3 : Fin 4) * 3 + 1 * (j 3).val = win0_8.index t (3 : Fin 4) * 3 + 1 * (j 3).val; omega
/-- Corner window 2's block sits in its array where the result's block sits in the result array. -/
theorem emb2 (t : Fin cfg0.N) (j : S4x224x224x3.Idx) : ((cfg0.win 2).blk t).view.emb j = ((cfg0.win 8).blk t).view.emb j := by
  obtain ⟨e0, e1, e2, e3⟩ := idx_w2 t
  funext a; apply Fin.ext
  match a with
  | ⟨0, _⟩ => show win0_2.index t (0 : Fin 4) * 4 + 1 * (j 0).val = win0_8.index t (0 : Fin 4) * 4 + 1 * (j 0).val; omega
  | ⟨1, _⟩ => show win0_2.index t (1 : Fin 4) * 224 + 1 * (j 1).val = win0_8.index t (1 : Fin 4) * 224 + 1 * (j 1).val; omega
  | ⟨2, _⟩ => show win0_2.index t (2 : Fin 4) * 224 + 1 * (j 2).val = win0_8.index t (2 : Fin 4) * 224 + 1 * (j 2).val; omega
  | ⟨3, _⟩ => show win0_2.index t (3 : Fin 4) * 3 + 1 * (j 3).val = win0_8.index t (3 : Fin 4) * 3 + 1 * (j 3).val; omega
/-- Corner window 3's block sits in its array where the result's block sits in the result array. -/
theorem emb3 (t : Fin cfg0.N) (j : S4x224x224x3.Idx) : ((cfg0.win 3).blk t).view.emb j = ((cfg0.win 8).blk t).view.emb j := by
  obtain ⟨e0, e1, e2, e3⟩ := idx_w3 t
  funext a; apply Fin.ext
  match a with
  | ⟨0, _⟩ => show win0_3.index t (0 : Fin 4) * 4 + 1 * (j 0).val = win0_8.index t (0 : Fin 4) * 4 + 1 * (j 0).val; omega
  | ⟨1, _⟩ => show win0_3.index t (1 : Fin 4) * 224 + 1 * (j 1).val = win0_8.index t (1 : Fin 4) * 224 + 1 * (j 1).val; omega
  | ⟨2, _⟩ => show win0_3.index t (2 : Fin 4) * 224 + 1 * (j 2).val = win0_8.index t (2 : Fin 4) * 224 + 1 * (j 2).val; omega
  | ⟨3, _⟩ => show win0_3.index t (3 : Fin 4) * 3 + 1 * (j 3).val = win0_8.index t (3 : Fin 4) * 3 + 1 * (j 3).val; omega
/-- Weight window 5's block sits in its array where weight window 4's sits in its own. -/
theorem emb5 (t : Fin cfg0.N) (y : S4x224x224x1.Idx) : ((cfg0.win 5).blk t).view.emb y = ((cfg0.win 4).blk t).view.emb y := by
  obtain ⟨e0, e1, e2, e3⟩ := idx_w5 t
  obtain ⟨f0, f1, f2, f3⟩ := idx_w4 t
  funext a; apply Fin.ext
  match a with
  | ⟨0, _⟩ => show win0_5.index t (0 : Fin 4) * 4 + 1 * (y 0).val = win0_4.index t (0 : Fin 4) * 4 + 1 * (y 0).val; omega
  | ⟨1, _⟩ => show win0_5.index t (1 : Fin 4) * 224 + 1 * (y 1).val = win0_4.index t (1 : Fin 4) * 224 + 1 * (y 1).val; omega
  | ⟨2, _⟩ => show win0_5.index t (2 : Fin 4) * 224 + 1 * (y 2).val = win0_4.index t (2 : Fin 4) * 224 + 1 * (y 2).val; omega
  | ⟨3, _⟩ => show win0_5.index t (3 : Fin 4) * 1 + 1 * (y 3).val = win0_4.index t (3 : Fin 4) * 1 + 1 * (y 3).val; omega
/-- Weight window 6's block sits in its array where weight window 4's sits in its own. -/
theorem emb6 (t : Fin cfg0.N) (y : S4x224x224x1.Idx) : ((cfg0.win 6).blk t).view.emb y = ((cfg0.win 4).blk t).view.emb y := by
  obtain ⟨e0, e1, e2, e3⟩ := idx_w6 t
  obtain ⟨f0, f1, f2, f3⟩ := idx_w4 t
  funext a; apply Fin.ext
  match a with
  | ⟨0, _⟩ => show win0_6.index t (0 : Fin 4) * 4 + 1 * (y 0).val = win0_4.index t (0 : Fin 4) * 4 + 1 * (y 0).val; omega
  | ⟨1, _⟩ => show win0_6.index t (1 : Fin 4) * 224 + 1 * (y 1).val = win0_4.index t (1 : Fin 4) * 224 + 1 * (y 1).val; omega
  | ⟨2, _⟩ => show win0_6.index t (2 : Fin 4) * 224 + 1 * (y 2).val = win0_4.index t (2 : Fin 4) * 224 + 1 * (y 2).val; omega
  | ⟨3, _⟩ => show win0_6.index t (3 : Fin 4) * 1 + 1 * (y 3).val = win0_4.index t (3 : Fin 4) * 1 + 1 * (y 3).val; omega
/-- Weight window 7's block sits in its array where weight window 4's sits in its own. -/
theorem emb7 (t : Fin cfg0.N) (y : S4x224x224x1.Idx) : ((cfg0.win 7).blk t).view.emb y = ((cfg0.win 4).blk t).view.emb y := by
  obtain ⟨e0, e1, e2, e3⟩ := idx_w7 t
  obtain ⟨f0, f1, f2, f3⟩ := idx_w4 t
  funext a; apply Fin.ext
  match a with
  | ⟨0, _⟩ => show win0_7.index t (0 : Fin 4) * 4 + 1 * (y 0).val = win0_4.index t (0 : Fin 4) * 4 + 1 * (y 0).val; omega
  | ⟨1, _⟩ => show win0_7.index t (1 : Fin 4) * 224 + 1 * (y 1).val = win0_4.index t (1 : Fin 4) * 224 + 1 * (y 1).val; omega
  | ⟨2, _⟩ => show win0_7.index t (2 : Fin 4) * 224 + 1 * (y 2).val = win0_4.index t (2 : Fin 4) * 224 + 1 * (y 2).val; omega
  | ⟨3, _⟩ => show win0_7.index t (3 : Fin 4) * 1 + 1 * (y 3).val = win0_4.index t (3 : Fin 4) * 1 + 1 * (y 3).val; omega

/-- A sum of four products is determined by its eight operands. -/
theorem sum4_congr {φ : FTy} {w0 w1 w2 w3 x0 x1 x2 x3 w0' w1' w2' w3' x0' x1' x2' x3' : F φ}
    (hw0 : w0 = w0') (hx0 : x0 = x0') (hw1 : w1 = w1') (hx1 : x1 = x1') (hw2 : w2 = w2') (hx2 : x2 = x2') (hw3 : w3 = w3') (hx3 : x3 = x3') :
    FloatOps.addf (FloatOps.addf (FloatOps.addf (FloatOps.mulf w0 x0) (FloatOps.mulf w1 x1)) (FloatOps.mulf w2 x2)) (FloatOps.mulf w3 x3)
      = FloatOps.addf (FloatOps.addf (FloatOps.addf (FloatOps.mulf w0' x0') (FloatOps.mulf w1' x1')) (FloatOps.mulf w2' x2')) (FloatOps.mulf w3' x3') := by
  rw [hw0, hx0, hw1, hx1, hw2, hx2, hw3, hx3]

/-- Corner window 0's block at a point, read at an index of the block, is its array where the result's block sits. -/
theorem read0 (c : Dev nD) (t : Fin cfg0.N) (y : S4x224x224x3.Idx) :
    (iblk m c 0 t : Vec F S4x224x224x3 .f32) y = V m c (Pipeline.arrRef spec0 0) (((cfg0.win 8).blk t).view.emb y) := by
  unfold iblk; rw [View.read_apply, emb0 t y]; rfl
/-- Corner window 1's block at a point, read at an index of the block, is its array where the result's block sits. -/
theorem read1 (c : Dev nD) (t : Fin cfg0.N) (y : S4x224x224x3.Idx) :
    (iblk m c 1 t : Vec F S4x224x224x3 .f32) y = V m c (Pipeline.arrRef spec0 1) (((cfg0.win 8).blk t).view.emb y) := by
  unfold iblk; rw [View.read_apply, emb1 t y]; rfl
/-- Corner window 2's block at a point, read at an index of the block, is its array where the result's block sits. -/
theorem read2 (c : Dev nD) (t : Fin cfg0.N) (y : S4x224x224x3.Idx) :
    (iblk m c 2 t : Vec F S4x224x224x3 .f32) y = V m c (Pipeline.arrRef spec0 2) (((cfg0.win 8).blk t).view.emb y) := by
  unfold iblk; rw [View.read_apply, emb2 t y]; rfl
/-- Corner window 3's block at a point, read at an index of the block, is its array where the result's block sits. -/
theorem read3 (c : Dev nD) (t : Fin cfg0.N) (y : S4x224x224x3.Idx) :
    (iblk m c 3 t : Vec F S4x224x224x3 .f32) y = V m c (Pipeline.arrRef spec0 3) (((cfg0.win 8).blk t).view.emb y) := by
  unfold iblk; rw [View.read_apply, emb3 t y]; rfl
/-- Weight window 4's block at a point, read at an index of the block, is its array at the block's place. -/
theorem read4 (c : Dev nD) (t : Fin cfg0.N) (y : S4x224x224x1.Idx) :
    (iblk m c 4 t : Vec F S4x224x224x1 .f32) y = V m c (Pipeline.arrRef spec0 4) (((cfg0.win 4).blk t).view.emb y) := by
  unfold iblk; rw [View.read_apply]; rfl
/-- Weight window 5's block at a point, read at an index of the block, is its array where weight window 4's block sits. -/
theorem read5 (c : Dev nD) (t : Fin cfg0.N) (y : S4x224x224x1.Idx) :
    (iblk m c 5 t : Vec F S4x224x224x1 .f32) y = V m c (Pipeline.arrRef spec0 5) (((cfg0.win 4).blk t).view.emb y) := by
  unfold iblk; rw [View.read_apply, emb5 t y]; rfl
/-- Weight window 6's block at a point, read at an index of the block, is its array where weight window 4's block sits. -/
theorem read6 (c : Dev nD) (t : Fin cfg0.N) (y : S4x224x224x1.Idx) :
    (iblk m c 6 t : Vec F S4x224x224x1 .f32) y = V m c (Pipeline.arrRef spec0 6) (((cfg0.win 4).blk t).view.emb y) := by
  unfold iblk; rw [View.read_apply, emb6 t y]; rfl
/-- Weight window 7's block at a point, read at an index of the block, is its array where weight window 4's block sits. -/
theorem read7 (c : Dev nD) (t : Fin cfg0.N) (y : S4x224x224x1.Idx) :
    (iblk m c 7 t : Vec F S4x224x224x1 .f32) y = V m c (Pipeline.arrRef spec0 7) (((cfg0.win 4).blk t).view.emb y) := by
  unfold iblk; rw [View.read_apply, emb7 t y]; rfl

set_option maxHeartbeats 1000000 in
/-- The payload of a point's input blocks at an index of the block is the blend of the arrays at the index's place. -/
theorem pay_blocks (c : Dev nD) (t : Fin cfg0.N) (j : S4x224x224x3.Idx) :
    k0_pay1 (iblk m c 4 t) (iblk m c 0 t) (iblk m c 5 t) (iblk m c 1 t) (iblk m c 6 t) (iblk m c 2 t) (iblk m c 7 t) (iblk m c 3 t) j
      = blend (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (((cfg0.win 8).blk t).view.emb j) := by
  obtain ⟨f0, f1, f2, f3⟩ := idx_w4 t
  obtain ⟨g0, g1, g2, g3⟩ := idx_out t
  refine (pay_apply (F := F) (iblk m c 4 t) (iblk m c 0 t) (iblk m c 5 t) (iblk m c 1 t) (iblk m c 6 t) (iblk m c 2 t) (iblk m c 7 t) (iblk m c 3 t) j).trans ?_
  refine Eq.trans ?_ (blend_apply (F := F) (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7))
    (((cfg0.win 8).blk t).view.emb j) (((cfg0.win 4).blk t).view.emb (pixelOf j)) ?_ ?_ ?_ ?_).symm
  · exact sum4_congr (read4 m c t (pixelOf j)) (read0 m c t j) (read5 m c t (pixelOf j)) (read1 m c t j)
      (read6 m c t (pixelOf j)) (read2 m c t j) (read7 m c t (pixelOf j)) (read3 m c t j)
  · show win0_4.index t (0 : Fin 4) * 4 + 1 * (j 0).val = win0_8.index t (0 : Fin 4) * 4 + 1 * (j 0).val; omega
  · show win0_4.index t (1 : Fin 4) * 224 + 1 * (j 1).val = win0_8.index t (1 : Fin 4) * 224 + 1 * (j 1).val; omega
  · show win0_4.index t (2 : Fin 4) * 224 + 1 * (j 2).val = win0_8.index t (2 : Fin 4) * 224 + 1 * (j 2).val; omega
  · show win0_4.index t (3 : Fin 4) * 1 + 1 * 0 = 0; omega

/-! ## What a point writes back -/

/-- Point `t` writes back block `t` of the blend of the arrays as the region finds them. -/
theorem flushed_eq (c : Dev nD) (t : Fin cfg0.N) :
    (dats m 0 c).flushed 8 t = ((cfg0.win 8).blk t).view.read (Elt F) (blend (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7))) := by
  show (cfg0.win 8).cut (grid0.coords t) ((dats m 0 c).after 8 t) = _
  rw [after8]
  unfold outBlock
  rw [View.canon_unit_zero hz4]
  simp only [View.ld_unit_zero (S := S4x224x224x3) hz4, View.ld_unit_zero (S := S4x224x224x1) hz4]
  funext j
  exact pay_blocks m c t j

/-! ## The result blocks tile the result array -/

theorem mem_blk8 (t : Fin cfg0.N) (i : S128x224x224x3.Idx) :
    i ∈ ((cfg0.win 8).blk t).view.set ↔ ∀ a : Fin 4, win0_8.index t a * S4x224x224x3.size a ≤ (i a).val ∧ (i a).val < win0_8.index t a * S4x224x224x3.size a + S4x224x224x3.size a := by
  show i ∈ ((View.whole main_v128).slice (win0_8.rect t)).set ↔ _
  rw [View.set_slice_whole, Rect.mem_set_unit]
  exact Iff.rfl

/-- Image `b` of the result array lies in the block of point `b / 4`. -/
theorem covered (i : S128x224x224x3.Idx) : ∃ t : Fin cfg0.N, (cfg0.win 8).flush t = true ∧ i ∈ ((cfg0.win 8).blk t).view.set := by
  have hi0 : (i 0).val < 128 := (i 0).isLt
  have hi1 : (i 1).val < 224 := (i 1).isLt
  have hi2 : (i 2).val < 224 := (i 2).isLt
  have hi3 : (i 3).val < 3 := (i 3).isLt
  have hlt : (i 0).val / 4 < grid0.N := by rw [N_0]; omega
  obtain ⟨g0, g1, g2, g3⟩ := idx_out ⟨(i 0).val / 4, hlt⟩
  have g0' : win0_8.index ⟨(i 0).val / 4, hlt⟩ (0 : Fin 4) = (i 0).val / 4 := g0
  refine ⟨⟨(i 0).val / 4, hlt⟩, flush0_8 _, ?_⟩
  rw [mem_blk8]
  intro a
  match a with
  | ⟨0, _⟩ => show win0_8.index ⟨(i 0).val / 4, hlt⟩ (0 : Fin 4) * 4 ≤ (i 0).val ∧ (i 0).val < win0_8.index ⟨(i 0).val / 4, hlt⟩ (0 : Fin 4) * 4 + 4; omega
  | ⟨1, _⟩ => show win0_8.index ⟨(i 0).val / 4, hlt⟩ (1 : Fin 4) * 224 ≤ (i 1).val ∧ (i 1).val < win0_8.index ⟨(i 0).val / 4, hlt⟩ (1 : Fin 4) * 224 + 224; omega
  | ⟨2, _⟩ => show win0_8.index ⟨(i 0).val / 4, hlt⟩ (2 : Fin 4) * 224 ≤ (i 2).val ∧ (i 2).val < win0_8.index ⟨(i 0).val / 4, hlt⟩ (2 : Fin 4) * 224 + 224; omega
  | ⟨3, _⟩ => show win0_8.index ⟨(i 0).val / 4, hlt⟩ (3 : Fin 4) * 3 ≤ (i 3).val ∧ (i 3).val < win0_8.index ⟨(i 0).val / 4, hlt⟩ (3 : Fin 4) * 3 + 3; omega

/-- So the result array ends holding the blend. -/
theorem final (c : Dev nD) : (dats m 0 c).arrAt 8 cfg0.N = blend (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) :=
  (dats m 0 c).arrAt_eq_of_cover 8 _ (fun t _ => flushed_eq m c t) covered

/-- The run, read: the result array at the blend of the staged arrays, the argument unchanged. -/
theorem run_blend : θ_run defs (onTc (τ := τ) (main (F := F))) ⟨m, fun _ => 0, ρ⟩ fun r => ∀ c : Dev nD,
      r.2.mem ((c.tc : Thread nD τ).loc main_v128) = blend (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7))
      ∧ r.2.mem ((c.tc : Thread nD τ).loc main_arg0) = m ((c.tc : Thread nD τ).loc main_arg0) :=
  (θ_run defs _ _).mono (fun r h c => ⟨((h c).1 8).trans (final m c), kept_arg m r h c⟩) (run_main m ρ)

end Cert.KernelIdeal.Combine

end
-- ==== Proof.LibNary3.lean ====
/-
  A host operation over a literal family of THREE operand references (a concatenate of three pieces), read at its
  result reference with each operand's contents at its own reference, so that rewriting can go on inside the operands;
  and the one-pass computation of what a buffer holds after a line of host operations, with that lemma in its set.
-/
import Idealize.ShloMosaic.Lib.StableHlo.Run

noncomputable section

namespace Idealize.ShloMosaic.StableHlo

variable {τ : Topo} {sig : RefSig} {Val : EltTy → Type}
variable {x a b y : Ref sig .tc}

/-- The result of an operation over the three references `![x, a, b]`: its function at the three operands' contents,
    each read at its own literal reference (`Fin.cons` in place of `fun k => F ↑(![x, a, b] k)`). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the rewriting index, for a `simp` pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- What a buffer holds after a line of host operations, computed in one `simp` pass: each operation's result at its
    own reference is its function of its operands' contents, at any other reference what was there; a three-piece
    concatenate is opened operand by operand. -/
macro "after_results_simp3" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.HostTerms.lean ====
/-
  What the kernel's host operations leave in the eight arrays its region stages, as functions of the argument array:
  the four corner images and the four corner weights of the specification, operation for operation.
-/
import proofs.«110315_j48232482734312_1_alg».proof.Proof.IdealFrame
import proofs.«110315_j48232482734312_1_alg».proof.Proof.Sampler
import proofs.«110315_j48232482734312_1_alg».proof.Proof.LibNary3

noncomputable section

namespace Cert.KernelIdeal.Combine

open Cert.KernelIdeal Cert.KernelIdeal.Gen Idealize.ShloMosaic Idealize.ShloMosaic.TcCoe Idealize.SL.Sem Idealize.ShloMosaic.StableHlo
open Cert.ReferenceIdeal.Sampler (corner padded batchIdx wrapIdx clipIdx weightTL weightBL weightTR weightBR perPixel cofrac frac coordX coordY)

variable {F : FTy → Type} [FloatOps F]
variable (m : (ℓ : Loc nD τ sig) → Buf (Elt F) ℓ)

set_option maxRecDepth 16384 in
set_option maxHeartbeats 80000000 in
/-- Each staged array is its term of the specification at the argument array as launched: every host operation's
    result at its own buffer is its function of its operands' contents, followed from the staged array back to the
    argument. -/
theorem staged (c : Dev nD) :
    (V m c main_v64 : S128x224x224x3.Idx → Elt F .f32) = corner (m ((c : Thread nD τ).loc main_arg0)) 0x3F800000#32 0x3F800000#32
    ∧ (V m c main_v85 : S128x224x224x3.Idx → Elt F .f32) = corner (m ((c : Thread nD τ).loc main_arg0)) 0x40000000#32 0x3F800000#32
    ∧ (V m c main_v106 : S128x224x224x3.Idx → Elt F .f32) = corner (m ((c : Thread nD τ).loc main_arg0)) 0x3F800000#32 0x40000000#32
    ∧ (V m c main_v127 : S128x224x224x3.Idx → Elt F .f32) = corner (m ((c : Thread nD τ).loc main_arg0)) 0x40000000#32 0x40000000#32
    ∧ (V m c main_v14 : S128x224x224x1.Idx → Elt F .f32) = weightTL (m ((c : Thread nD τ).loc main_arg0))
    ∧ (V m c main_v18 : S128x224x224x1.Idx → Elt F .f32) = weightBL (m ((c : Thread nD τ).loc main_arg0))
    ∧ (V m c main_v22 : S128x224x224x1.Idx → Elt F .f32) = weightTR (m ((c : Thread nD τ).loc main_arg0))
    ∧ (V m c main_v24 : S128x224x224x1.Idx → Elt F .f32) = weightBR (m ((c : Thread nD τ).loc main_arg0)) := by
  dsimp only [V, stretches]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp3
  unfold corner padded batchIdx wrapIdx clipIdx weightTL weightBL weightTR weightBR perPixel cofrac frac coordX coordY
  exact ⟨rfl, rfl, rfl, rfl, rfl, rfl, rfl, rfl⟩

end Cert.KernelIdeal.Combine

end
-- ==== Proof.IdealSample.lean ====
/-
  The idealized kernel's run, read against the specification: its result array ends at the sampled image of the
  argument array. The region blends the eight staged arrays; each staged array is its term of the specification.
-/
import proofs.«110315_j48232482734312_1_alg».proof.Proof.IdealValue
import proofs.«110315_j48232482734312_1_alg».proof.Proof.HostTerms

noncomputable section

namespace Cert.KernelIdeal.Combine

open Cert.KernelIdeal Cert.KernelIdeal.Gen Idealize.ShloMosaic Idealize.ShloMosaic.TcCoe Idealize.SL.Sem
open Cert.ReferenceIdeal.Sampler (sample blend)

variable {F : FTy → Type} [FloatOps F]
variable (m : (ℓ : Loc nD τ sig) → Buf (Elt F) ℓ) (ρ : Dev nD → PrngReg)

/-- The blend of the staged arrays (window `w`'s array is the buffer the host operations wrote it in) is the sampled image of the argument. -/
theorem blend_staged (c : Dev nD) :
    blend (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7))
      = sample (m ((c : Thread nD τ).loc main_arg0)) := by
  obtain ⟨e0, e1, e2, e3, e4, e5, e6, e7⟩ := staged m c
  show blend (V m c main_v64) (V m c main_v85) (V m c main_v106) (V m c main_v127) (V m c main_v14) (V m c main_v18) (V m c main_v22) (V m c main_v24) = _
  rw [e0, e1, e2, e3, e4, e5, e6, e7]
  rfl

/-- The run, read: the result array at the sampled image of the argument, the argument unchanged. -/
theorem run_sample : θ_run defs (onTc (τ := τ) (main (F := F))) ⟨m, fun _ => 0, ρ⟩ fun r => ∀ c : Dev nD,
      r.2.mem ((c.tc : Thread nD τ).loc main_v128) = sample (m ((c.tc : Thread nD τ).loc main_arg0))
      ∧ r.2.mem ((c.tc : Thread nD τ).loc main_arg0) = m ((c.tc : Thread nD τ).loc main_arg0) :=
  (θ_run defs _ _).mono (fun _ h c => ⟨(h c).1.trans (blend_staged m c), (h c).2⟩) (run_blend m ρ)

end Cert.KernelIdeal.Combine

end
-- ==== Proof.RefValue.lean ====
/-
  The reference's run, read against the specification: the composed term of its host operations is the sampled image
  of the argument array, operation for operation.
-/
import proofs.«110315_j48232482734312_1_alg».proof.Proof.Gen.ReferenceIdeal.Run
import proofs.«110315_j48232482734312_1_alg».proof.Proof.Sampler

noncomputable section

namespace Cert.ReferenceIdeal.Sampler

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxRecDepth 8192 in
/-- The reference's result term is the sampled image of its argument: unfolding the specification's names gives the
    composed term itself. -/
theorem res_eq_sample (m : (ℓ : Loc nD τ sig) → Buf (Elt F) ℓ) (c : Dev nD) :
    res_main_v138 m c = sample (m ((c.tc : Thread nD τ).loc main_arg0)) := by
  unfold res_main_v138 sample blend corner padded batchIdx wrapIdx clipIdx weightTL weightBL weightTR weightBR perPixel cofrac frac coordX coordY
  rfl

/-- The reference's run, read: the result array at the sampled image of the argument, the argument unchanged. -/
theorem run_sample (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v138) = sample (m ((c.tc : Thread nD τ).loc main_arg0))
      ∧ r.2.mem ((c.tc : Thread nD τ).loc main_arg0) = m ((c.tc : Thread nD τ).loc main_arg0) :=
  (θ_run defs _ _).mono (fun _ h c => ⟨(h c).1.trans (res_eq_sample m c), (h c).2⟩) (run m ρ)

end Cert.ReferenceIdeal.Sampler

end
-- ==== Proof.lean ====
/-
  The certificate of the bilinear sampling kernel against its reference.

  Both programs compute, with the same host operations, the four corner images (gathered from the zero-padded image
  at the clipped integer coordinates) and the four corner weights (products of the coordinates' fractional parts
  and their complements). The reference then forms the weighted sum on the host; the kernel forms the same sum,
  in the same order, block by block over the batch axis in its one region. So at the ideal instance both results
  are one function of the argument array, the sampled image of the specification, and no law of the extended
  reals beyond equality of identical terms is used; the precondition is not opened.

  The three frames: the kernel's and the idealized kernel's are the region's frame run (the host operations, the
  pipeline, the body at every grid point); the reference's is its run with the result dropped. The idealization
  rewrote no operation, so `preserves` is trivial.
-/
import proofs.«110315_j48232482734312_1_alg».proof.Defs
import proofs.«110315_j48232482734312_1_alg».proof.Proof.Gen.Kernel
import proofs.«110315_j48232482734312_1_alg».proof.Proof.Gen.KernelIdeal
import proofs.«110315_j48232482734312_1_alg».proof.Proof.Gen.ReferenceIdeal
import proofs.«110315_j48232482734312_1_alg».proof.Proof.Gen.Pre_finite_inputs
import proofs.«110315_j48232482734312_1_alg».proof.Proof.BitsFrame
import proofs.«110315_j48232482734312_1_alg».proof.Proof.IdealSample
import proofs.«110315_j48232482734312_1_alg».proof.Proof.RefValue

noncomputable section

namespace Cert.Proof

open Idealize.ShloMosaic Idealize.ShloMosaic.TcCoe Idealize.SL.Sem

theorem frame_k : Cert.frame_Kernel := fun m ρ _ => Cert.Kernel.Combine.frame m ρ

theorem frame_ki : Cert.frame_KernelIdeal := fun m ρ _ => Cert.KernelIdeal.Combine.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the argument, both programs end with the sampled image of that argument. -/
theorem algebraic : Cert.algebraic_KernelIdeal_ReferenceIdeal := by
  intro m ρ m' ρ' _ hagree
  refine ⟨_, Cert.KernelIdeal.Combine.run_sample (F := Ideal) m ρ, ?_⟩
  refine (θ_run Cert.ReferenceIdeal.defs _ _).mono (fun _ h c => ⟨(h c).1.trans ?_, (h c).2⟩)
    (Cert.ReferenceIdeal.Sampler.run_sample (F := Ideal) m' ρ')
  rw [hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
